-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x64 : Shape := ⟨2, ![16384, 64]⟩
abbrev S262144x6 : Shape := ⟨2, ![262144, 6]⟩
abbrev S262144 : Shape := ⟨1, ![262144]⟩
abbrev S95x256 : Shape := ⟨2, ![95, 256]⟩
abbrev S256x6 : Shape := ⟨2, ![256, 6]⟩
abbrev S256 : Shape := ⟨1, ![256]⟩
abbrev S256x896 : Shape := ⟨2, ![256, 896]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S95x256 : S_.BroadcastsInDim S95x256 (![] : Fin 0 → Fin S95x256.rank)
  reducesTo_S95x256_S_d0_1 : S95x256.ReducesTo [0, 1] S_
  bcast_S_S256x6 : S_.BroadcastsInDim S256x6 (![] : Fin 0 → Fin S256x6.rank)
  reducesTo_S256x6_S_d0_1 : S256x6.ReducesTo [0, 1] S_
  bcast_S_S256 : S_.BroadcastsInDim S256 (![] : Fin 0 → Fin S256.rank)
  reducesTo_S256_S_d0 : S256.ReducesTo [0] S_
  bcast_S_S256x896 : S_.BroadcastsInDim S256x896 (![] : Fin 0 → Fin S256x896.rank)
  reducesTo_S256x896_S_d0_1 : S256x896.ReducesTo [0, 1] S_
  bcast_S_S16384 : S_.BroadcastsInDim S16384 (![] : Fin 0 → Fin S16384.rank)
  reducesTo_S16384_S_d0 : S16384.ReducesTo [0] S_
  bcast_S_S262144 : S_.BroadcastsInDim S262144 (![] : Fin 0 → Fin S262144.rank)
  reducesTo_S262144_S_d0 : S262144.ReducesTo [0] S_

variable [Facts]

def fn_part3 {F : FTy → Type} [FloatOps F] (main_arg4 : IVec S262144 32) (main_v47 : IVec S_ 1) (main_v49 : IVec S262144 1) (main_c_19 : IVec S_ 32) : IVec S_ 1 :=
  let main_v50 : IVec S262144 32 := broadcastInDim S262144 ![] bcast_S_S262144 main_c_19
  let main_v51 : IVec S262144 1 := cmpi .slt main_arg4 main_v50
  let main_v52 : IVec S262144 1 := andi main_v49 main_v51
  let main_c_20 : IVec S_ 1 := constantI S_ 1 1#1
  let main_v53 : IVec S_ 1 := (fun x v => Host.reduce IntOp.andi x v reducesTo_S262144_S_d0 h_S_) main_v52 main_c_20
  let main_v54 : IVec S_ 1 := andi main_v47 main_v53
  main_v54

def fn_part2 {F : FTy → Type} [FloatOps F] (main_arg0 : IVec S16384 32) (main_arg3 : IVec S262144 32) (main_arg4 : IVec S262144 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg0 main_v34
  let main_c_13 : IVec S_ 32 := constantI S_ 32 95#32
  let main_v36 : IVec S16384 32 := broadcastInDim S16384 ![] bcast_S_S16384 main_c_13
  let main_v37 : IVec S16384 1 := cmpi .slt main_arg0 main_v36
  let main_v38 : IVec S16384 1 := andi main_v35 main_v37
  let main_c_14 : IVec S_ 1 := constantI S_ 1 1#1
  let main_v39 : IVec S_ 1 := (fun x v => Host.reduce IntOp.andi x v reducesTo_S16384_S_d0 h_S_) main_v38 main_c_14
  let main_v40 : IVec S_ 1 := andi main_v33 main_v39
  let main_c_15 : IVec S_ 32 := constantI S_ 32 0#32
  let main_v41 : IVec S262144 32 := broadcastInDim S262144 ![] bcast_S_S262144 main_c_15
  let main_v42 : IVec S262144 1 := cmpi .sge main_arg3 main_v41
  let main_c_16 : IVec S_ 32 := constantI S_ 32 16384#32
  let main_v43 : IVec S262144 32 := broadcastInDim S262144 ![] bcast_S_S262144 main_c_16
  let main_v44 : IVec S262144 1 := cmpi .slt main_arg3 main_v43
  let main_v45 : IVec S262144 1 := andi main_v42 main_v44
  let main_c_17 : IVec S_ 1 := constantI S_ 1 1#1
  let main_v46 : IVec S_ 1 := (fun x v => Host.reduce IntOp.andi x v reducesTo_S262144_S_d0 h_S_) main_v45 main_c_17
  let main_v47 : IVec S_ 1 := andi main_v40 main_v46
  let main_c_18 : IVec S_ 32 := constantI S_ 32 0#32
  let main_v48 : IVec S262144 32 := broadcastInDim S262144 ![] bcast_S_S262144 main_c_18
  let main_v49 : IVec S262144 1 := cmpi .sge main_arg4 main_v48
  let main_c_19 : IVec S_ 32 := constantI S_ 32 16384#32
  fn_part3 (F := F) main_arg4 main_v47 main_v49 main_c_19

def fn_part1 {F : FTy → Type} [FloatOps F] (main_arg0 : IVec S16384 32) (main_arg3 : IVec S262144 32) (main_arg4 : IVec S262144 32) (main_arg7 : FVec F S256 .f32) (main_arg8 : FVec F S256x896 .f32) (main_arg9 : FVec F S256 .f32) (main_v13 : IVec S_ 1) (main_v16 : IVec S256x6 1) : IVec S_ 1 :=
  let main_c_5 : IVec S_ 1 := constantI S_ 1 1#1
  let main_v17 : IVec S_ 1 := (fun x v => Host.reduce IntOp.andi x v reducesTo_S256x6_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x896 .f32 := Host.absf main_arg8
  let main_cst_8 : FVec F S_ .f32 := constant S_ .f32 0x7F800000#32
  let main_v25 : FVec F S256x896 .f32 := broadcastInDim S256x896 ![] bcast_S_S256x896 main_cst_8
  let main_v26 : IVec S256x896 1 := cmpf .olt main_v24 main_v25
  let main_c_9 : IVec S_ 1 := constantI S_ 1 1#1
  let main_v27 : IVec S_ 1 := (fun x v => Host.reduce IntOp.andi x v reducesTo_S256x896_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg3 main_arg4 main_v33

def fn {F : FTy → Type} [FloatOps F] (main_arg0 : IVec S16384 32) (main_arg1 : FVec F S16384x64 .f32) (main_arg2 : FVec F S262144x6 .f32) (main_arg3 : IVec S262144 32) (main_arg4 : IVec S262144 32) (main_arg5 : FVec F S95x256 .f32) (main_arg6 : FVec F S256x6 .f32) (main_arg7 : FVec F S256 .f32) (main_arg8 : FVec F S256x896 .f32) (main_arg9 : FVec F S256 .f32) : IVec S_ 1 :=
  let main_v0 : FVec F S16384x64 .f32 := Host.absf main_arg1
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S262144x6 .f32 := Host.absf main_arg2
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S95x256 .f32 := Host.absf main_arg5
  let main_cst_2 : FVec F S_ .f32 := constant S_ .f32 0x7F800000#32
  let main_v10 : FVec F S95x256 .f32 := broadcastInDim S95x256 ![] bcast_S_S95x256 main_cst_2
  let main_v11 : IVec S95x256 1 := cmpf .olt main_v9 main_v10
  let main_c_3 : IVec S_ 1 := constantI S_ 1 1#1
  let main_v12 : IVec S_ 1 := (fun x v => Host.reduce IntOp.andi x v reducesTo_S95x256_S_d0_1 h_S_) main_v11 main_c_3
  let main_v13 : IVec S_ 1 := andi main_v8 main_v12
  let main_v14 : FVec F S256x6 .f32 := Host.absf main_arg6
  let main_cst_4 : FVec F S_ .f32 := constant S_ .f32 0x7F800000#32
  let main_v15 : FVec F S256x6 .f32 := broadcastInDim S256x6 ![] bcast_S_S256x6 main_cst_4
  let main_v16 : IVec S256x6 1 := cmpf .olt main_v14 main_v15
  fn_part1 (F := F) main_arg0 main_arg3 main_arg4 main_arg7 main_arg8 main_arg9 main_v13 main_v16
-- ==== Kernel.lean ====
abbrev S16384 : Shape := ⟨1, ![16384]⟩
abbrev S16384x64 : Shape := ⟨2, ![16384, 64]⟩
abbrev S262144x6 : Shape := ⟨2, ![262144, 6]⟩
abbrev S262144 : Shape := ⟨1, ![262144]⟩
abbrev S95x256 : Shape := ⟨2, ![95, 256]⟩
abbrev S256x6 : Shape := ⟨2, ![256, 6]⟩
abbrev S256 : Shape := ⟨1, ![256]⟩
abbrev S256x896 : Shape := ⟨2, ![256, 896]⟩
abbrev S16384x1 : Shape := ⟨2, ![16384, 1]⟩
abbrev S_ : Shape := ⟨0, ![]⟩
abbrev S128x256 : Shape := ⟨2, ![128, 256]⟩
abbrev S256x256 : Shape := ⟨2, ![256, 256]⟩
abbrev S256x64 : Shape := ⟨2, ![256, 64]⟩
abbrev S64x256 : Shape := ⟨2, ![64, 256]⟩
abbrev S6x256 : Shape := ⟨2, ![6, 256]⟩
abbrev S1x256 : Shape := ⟨2, ![1, 256]⟩
abbrev S16384x256 : Shape := ⟨2, ![16384, 256]⟩
abbrev S2048x1 : Shape := ⟨2, ![2048, 1]⟩
abbrev S2048x64 : Shape := ⟨2, ![2048, 64]⟩
abbrev S2048x256 : Shape := ⟨2, ![2048, 256]⟩
abbrev S2048x128 : Shape := ⟨2, ![2048, 128]⟩
abbrev S262144x1 : Shape := ⟨2, ![262144, 1]⟩
abbrev S1 : Shape := ⟨1, ![1]⟩
abbrev S1x1 : Shape := ⟨2, ![1, 1]⟩
abbrev S262144x256 : Shape := ⟨2, ![262144, 256]⟩
abbrev S4096x6 : Shape := ⟨2, ![4096, 6]⟩
abbrev S4096x256 : Shape := ⟨2, ![4096, 256]⟩

abbrev nBuf : Space → Nat
  | .hbm => 83
  | .vmem => 25
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S262144x6, .f32⟩
  | .hbm, ⟨3, _⟩ => ⟨S262144, .i32⟩
  | .hbm, ⟨4, _⟩ => ⟨S262144, .i32⟩
  | .hbm, ⟨5, _⟩ => ⟨S95x256, .f32⟩
  | .hbm, ⟨6, _⟩ => ⟨S256x6, .f32⟩
  | .hbm, ⟨7, _⟩ => ⟨S256, .f32⟩
  | .hbm, ⟨8, _⟩ => ⟨S256x896, .f32⟩
  | .hbm, ⟨9, _⟩ => ⟨S256, .f32⟩
  | .hbm, ⟨10, _⟩ => ⟨S16384x1, .i32⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S128x256, .bf16⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S256x64, .f32⟩
  | .hbm, ⟨19, _⟩ => ⟨S64x256, .f32⟩
  | .hbm, ⟨20, _⟩ => ⟨S64x256, .bf16⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S256x64, .f32⟩
  | .hbm, ⟨25, _⟩ => ⟨S64x256, .f32⟩
  | .hbm, ⟨26, _⟩ => ⟨S64x256, .bf16⟩
  | .hbm, ⟨27, _⟩ => ⟨S256x256, .f32⟩
  | .hbm, ⟨28, _⟩ => ⟨S256x256, .f32⟩
  | .hbm, ⟨29, _⟩ => ⟨S256x256, .bf16⟩
  | .hbm, ⟨30, _⟩ => ⟨S6x256, .f32⟩
  | .hbm, ⟨31, _⟩ => ⟨S6x256, .bf16⟩
  | .hbm, ⟨32, _⟩ => ⟨S1x256, .f32⟩
  | .hbm, ⟨33, _⟩ => ⟨S1x256, .f32⟩
  | .hbm, ⟨34, _⟩ => ⟨S16384x256, .f32⟩
  | .hbm, ⟨35, _⟩ => ⟨S16384x256, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S1, .i32⟩
  | .hbm, ⟨45, _⟩ => ⟨S_, .i32⟩
  | .hbm, ⟨46, _⟩ => ⟨S262144x1, .i32⟩
  | .hbm, ⟨47, _⟩ => ⟨S262144x1, .i1⟩
  | .hbm, ⟨48, _⟩ => ⟨S1x1, .i32⟩
  | .hbm, ⟨49, _⟩ => ⟨S262144x1, .i32⟩
  | .hbm, ⟨50, _⟩ => ⟨S262144x1, .i1⟩
  | .hbm, ⟨51, _⟩ => ⟨S262144x1, .i1⟩
  | .hbm, ⟨52, _⟩ => ⟨S_, .i1⟩
  | .hbm, ⟨53, _⟩ => ⟨S262144, .i1⟩
  | .hbm, ⟨54, _⟩ => ⟨S262144x256, .f32⟩
  | .hbm, ⟨55, _⟩ => ⟨S262144x256, .i1⟩
  | .hbm, ⟨56, _⟩ => ⟨S_, .f32⟩
  | .hbm, ⟨57, _⟩ => ⟨S262144x256, .f32⟩
  | .hbm, ⟨58, _⟩ => ⟨S262144x256, .f32⟩
  | .hbm, ⟨59, _⟩ => ⟨S_, .i32⟩
  | .hbm, ⟨60, _⟩ => ⟨S262144, .i32⟩
  | .hbm, ⟨61, _⟩ => ⟨S262144, .i1⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S262144, .i32⟩
  | .hbm, ⟨66, _⟩ => ⟨S262144x1, .i32⟩
  | .hbm, ⟨67, _⟩ => ⟨S1, .i32⟩
  | .hbm, ⟨68, _⟩ => ⟨S_, .i32⟩
  | .hbm, ⟨69, _⟩ => ⟨S262144x1, .i32⟩
  | .hbm, ⟨70, _⟩ => ⟨S262144x1, .i1⟩
  | .hbm, ⟨71, _⟩ => ⟨S1x1, .i32⟩
  | .hbm, ⟨72, _⟩ => ⟨S262144x1, .i32⟩
  | .hbm, ⟨73, _⟩ => ⟨S262144x1, .i1⟩
  | .hbm, ⟨74, _⟩ => ⟨S262144x1, .i1⟩
  | .hbm, ⟨75, _⟩ => ⟨S_, .i1⟩
  | .hbm, ⟨76, _⟩ => ⟨S262144, .i1⟩
  | .hbm, ⟨77, _⟩ => ⟨S262144x256, .f32⟩
  | .hbm, ⟨78, _⟩ => ⟨S262144x256, .i1⟩
  | .hbm, ⟨79, _⟩ => ⟨S_, .f32⟩
  | .hbm, ⟨80, _⟩ => ⟨S262144x256, .f32⟩
  | .hbm, ⟨81, _⟩ => ⟨S262144x256, .f32⟩
  | .hbm, ⟨82, _⟩ => ⟨S262144x256, .f32⟩
  | .local _ .vmem, ⟨0, _⟩ => ⟨S2048x1, .i32⟩
  | .local _ .vmem, ⟨1, _⟩ => ⟨S2048x1, .i32⟩
  | .local _ .vmem, ⟨2, _⟩ => ⟨S2048x64, .f32⟩
  | .local _ .vmem, ⟨3, _⟩ => ⟨S2048x64, .f32⟩
  | .local _ .vmem, ⟨4, _⟩ => ⟨S128x256, .bf16⟩
  | .local _ .vmem, ⟨5, _⟩ => ⟨S256x256, .bf16⟩
  | .local _ .vmem, ⟨6, _⟩ => ⟨S64x256, .bf16⟩
  | .local _ .vmem, ⟨7, _⟩ => ⟨S256x256, .bf16⟩
  | .local _ .vmem, ⟨8, _⟩ => ⟨S64x256, .bf16⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S4096x6, .f32⟩
  | .local _ .vmem, ⟨14, _⟩ => ⟨S4096x6, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S6x256, .bf16⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S4096x256, .f32⟩
  | .local _ .vmem, ⟨24, _⟩ => ⟨S4096x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v23 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v24 : Ref sig .tc := ⟨.hbm, 81, rfl⟩
abbrev main_v25 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S16384_S16384x1 : S16384.ShapeCasts S16384x1
  pads_S95x256_S128x256_0330_000 : S95x256.Pads (![0, 0] : Fin 2 → Nat) ![33, 0] ![0, 0] S128x256
  h_S_ : 0 < S_.numel
  bitsLt_bf16_f32 : FTy.bits .bf16 < FTy.bits .f32
  slices_S256x896_S256x256_0_0 : S256x896.Slices ![0, 0] S256x256
  transposes_S256x256_S256x256_1_0 : S256x256.Transposes [1, 0] S256x256
  slices_S256x896_S256x64_0_256 : S256x896.Slices ![0, 256] S256x64
  transposes_S256x64_S64x256_1_0 : S256x64.Transposes [1, 0] S64x256
  slices_S256x896_S256x256_0_320 : S256x896.Slices ![0, 320] S256x256
  slices_S256x896_S256x64_0_576 : S256x896.Slices ![0, 576] S256x64
  slices_S256x896_S256x256_0_640 : S256x896.Slices ![0, 640] S256x256
  transposes_S256x6_S6x256_1_0 : S256x6.Transposes [1, 0] S6x256
  shapeCasts_S256_S1x256 : S256.ShapeCasts S1x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x128_d1_w32 : S2048x128.Iotas .tc 32 [1]
  broadcasts_S2048x1_S2048x128 : S2048x1.Broadcasts S2048x128
  natLt_1_32 : 1 < 32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x64_S2048x64_0_0 : ∀ a, (![0, 0] : Fin 2 → Nat) a + S2048x64.size a ≤ S2048x64.size a
  h_S2048x64 : 0 < S2048x64.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2048x256_S2048x256_0_0 : ∀ a, (![0, 0] : Fin 2 → Nat) a + S2048x256.size a ≤ S2048x256.size a
  h_S2048x256 : 0 < S2048x256.numel
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S262144_S262144x256_0 : S262144.BroadcastsInDim S262144x256 (![0] : Fin 1 → Fin S262144x256.rank)
  bcast_S_S262144x256 : S_.BroadcastsInDim S262144x256 (![] : Fin 0 → Fin S262144x256.rank)
  inb_S4096x6_S4096x6_0_0 : ∀ a, (![0, 0] : Fin 2 → Nat) a + S4096x6.size a ≤ S4096x6.size a
  h_S4096x6 : 0 < S4096x6.numel
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x64_S64x256_S2048x256_1_0_0_1_n_n_wf : DotDims.WF S2048x64 S64x256 S2048x256 [1] [0] [0] [1] [] []
  gather_S16384x256_S262144x1_S262144x256_1_0_n_n_0_1_1256_wf : GatherDims.WF S16384x256 S262144x1 S262144x256 [1] [0] [] [0] [] 1 ![1, 256]
  dot_S4096x6_S6x256_S4096x256_1_0_0_1_n_n_wf : DotDims.WF S4096x6 S6x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .i32 = 32 ∨ (Rect.block (s := S16384x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S16384x256.size a
  hwx0_7 : ∀ i : grid0.Coords, EltTy.bits .f32 = 32 ∨ (Rect.block (s := S16384x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S16384x256.size a
  hwx0_8 : ∀ i : grid0.Coords, EltTy.bits .f32 = 32 ∨ (Rect.block (s := S16384x256) S2048x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x6.size a ≤ S262144x6.size a
  hwx1_0 : ∀ i : grid1.Coords, EltTy.bits .f32 = 32 ∨ (Rect.block (s := S262144x6) S4096x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .f32 = 32 ∨ (Rect.block (s := S262144x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S262144x256.size a
  hwx1_2 : ∀ i : grid1.Coords, EltTy.bits .f32 = 32 ∨ (Rect.block (s := S262144x256) S4096x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x256.size a ≤ S6x256.size a
  hwx1_3 : ∀ i : grid1.Coords, EltTy.bits .bf16 = 32 ∨ (Rect.block (s := S6x256) S6x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x256.size a ≤ S262144x256.size a
  hwx1_7 : ∀ i : grid1.Coords, EltTy.bits .f32 = 32 ∨ (Rect.block (s := S262144x256) S4096x256.size (cc1_transform_7 i) (hinb1_7 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def dot_S4096x6_S6x256_S4096x256_1_0_0_1_n_n : DotDims S4096x6 S6x256 S4096x256 where
  lhsContracting := [1]
  rhsContracting := [0]
  lhsNonContracting := [0]
  rhsNonContracting := [1]
  lhsBatch := []
  rhsBatch := []
  wf := dot_S4096x6_S6x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S4096x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S6x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S4096x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384 : Shape := ⟨1, ![16384]⟩
abbrev S16384x64 : Shape := ⟨2, ![16384, 64]⟩
abbrev S262144x6 : Shape := ⟨2, ![262144, 6]⟩
abbrev S262144 : Shape := ⟨1, ![262144]⟩
abbrev S95x256 : Shape := ⟨2, ![95, 256]⟩
abbrev S256x6 : Shape := ⟨2, ![256, 6]⟩
abbrev S256 : Shape := ⟨1, ![256]⟩
abbrev S256x896 : Shape := ⟨2, ![256, 896]⟩
abbrev S_ : Shape := ⟨0, ![]⟩
abbrev S16384x1 : Shape := ⟨2, ![16384, 1]⟩
abbrev S16384x256 : Shape := ⟨2, ![16384, 256]⟩
abbrev S16384x320 : Shape := ⟨2, ![16384, 320]⟩
abbrev S262144x256 : Shape := ⟨2, ![262144, 256]⟩
abbrev S1x256 : Shape := ⟨2, ![1, 256]⟩
abbrev S262144x1 : Shape := ⟨2, ![262144, 1]⟩
abbrev S262144x320 : Shape := ⟨2, ![262144, 320]⟩
abbrev S262144x896 : Shape := ⟨2, ![262144, 896]⟩

abbrev nBuf : Space → Nat
  | .hbm => 65
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S262144x6, .f32⟩
  | .hbm, ⟨3, _⟩ => ⟨S262144, .i32⟩
  | .hbm, ⟨4, _⟩ => ⟨S262144, .i32⟩
  | .hbm, ⟨5, _⟩ => ⟨S95x256, .f32⟩
  | .hbm, ⟨6, _⟩ => ⟨S256x6, .f32⟩
  | .hbm, ⟨7, _⟩ => ⟨S256, .f32⟩
  | .hbm, ⟨8, _⟩ => ⟨S256x896, .f32⟩
  | .hbm, ⟨9, _⟩ => ⟨S256, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x256, .f32⟩
  | .hbm, ⟨19, _⟩ => ⟨S16384x320, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S262144x256, .f32⟩
  | .hbm, ⟨26, _⟩ => ⟨S_, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x320, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x320, .f32⟩
  | .hbm, ⟨51, _⟩ => ⟨S262144x896, .f32⟩
  | .hbm, ⟨52, _⟩ => ⟨S262144x256, .f32⟩
  | .hbm, ⟨53, _⟩ => ⟨S1x256, .f32⟩
  | .hbm, ⟨54, _⟩ => ⟨S262144x256, .f32⟩
  | .hbm, ⟨55, _⟩ => ⟨S262144x256, .f32⟩
  | .hbm, ⟨56, _⟩ => ⟨S262144x256, .f32⟩
  | .hbm, ⟨57, _⟩ => ⟨S262144x256, .f32⟩
  | .hbm, ⟨58, _⟩ => ⟨S_, .f32⟩
  | .hbm, ⟨59, _⟩ => ⟨S262144x256, .f32⟩
  | .hbm, ⟨60, _⟩ => ⟨S262144x256, .f32⟩
  | .hbm, ⟨61, _⟩ => ⟨S_, .f32⟩
  | .hbm, ⟨62, _⟩ => ⟨S262144x256, .f32⟩
  | .hbm, ⟨63, _⟩ => ⟨S262144x256, .f32⟩
  | .hbm, ⟨64, _⟩ => ⟨S262144x256, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x256_S16384x64_S16384x320_d1 : Shape.Concatenates [S16384x256, S16384x64] S16384x320 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x320_S262144x320_S262144x256_S262144x896_d1 : Shape.Concatenates [S262144x320, S262144x320, S262144x256] S262144x896 1
  gather_S95x256_S16384x1_S16384x256_1_0_n_n_0_1_1256_wf : GatherDims.WF S95x256 S16384x1 S16384x256 [1] [0] [] [0] [] 1 ![1, 256]
  dot_S262144x6_S256x6_S262144x256_1_1_0_0_n_n_wf : DotDims.WF S262144x6 S256x6 S262144x256 [1] [1] [0] [0] [] []
  gather_S16384x320_S262144x1_S262144x320_1_0_n_n_0_1_1320_wf : GatherDims.WF S16384x320 S262144x1 S262144x320 [1] [0] [] [0] [] 1 ![1, 320]
  dot_S262144x896_S256x896_S262144x256_1_1_0_0_n_n_wf : DotDims.WF S262144x896 S256x896 S262144x256 [1] [1] [0] [0] [] []

variable [Facts₀]

def gather_S95x256_S16384x1_S16384x256_1_0_n_n_0_1_1256 : GatherDims S95x256 S16384x1 S16384x256 where
  offsetDims := [1]
  collapsedSliceDims := [0]
  operandBatchingDims := []
  startIndicesBatchingDims := []
  startIndexMap := [0]
  indexVectorDim := 1
  sliceSizes := ![1, 256]
  wf := gather_S95x256_S16384x1_S16384x256_1_0_n_n_0_1_1256_wf
def dot_S262144x6_S256x6_S262144x256_1_1_0_0_n_n : DotDims S262144x6 S256x6 S262144x256 where
  lhsContracting := [1]
  rhsContracting := [1]
  lhsNonContracting := [0]
  rhsNonContracting := [0]
  lhsBatch := []
  rhsBatch := []
  wf := dot_S262144x6_S256x6_S262144x256_1_1_0_0_n_n_wf
def gather_S16384x320_S262144x1_S262144x320_1_0_n_n_0_1_1320 : GatherDims S16384x320 S262144x1 S262144x320 where
  offsetDims := [1]
  collapsedSliceDims := [0]
  operandBatchingDims := []
  startIndicesBatchingDims := []
  startIndexMap := [0]
  indexVectorDim := 1
  sliceSizes := ![1, 320]
  wf := gather_S16384x320_S262144x1_S262144x320_1_0_n_n_0_1_1320_wf
def dot_S262144x896_S256x896_S262144x256_1_1_0_0_n_n : DotDims S262144x896 S256x896 S262144x256 where
  lhsContracting := [1]
  rhsContracting := [1]
  lhsNonContracting := [0]
  rhsNonContracting := [0]
  lhsBatch := []
  rhsBatch := []
  wf := dot_S262144x896_S256x896_S262144x256_1_1_0_0_n_n_wf

class Facts : Prop extends Facts₀ where

variable [Facts]
-- ==== Proof.Spec.lean ====
/-
  The mathematics of the factored edge layer, index by index over the extended reals, with no program in sight.

  A node n has a feature row: the embedding row its vocabulary word selects (256 entries) followed by its conditioning row
  (64 entries). An edge e has two endpoint words and a radial row: the gated affine image of its 6 radial basis values
  (256 entries). The layer multiplies the 896 = 320 + 320 + 256 concatenated entries of (features of the first endpoint,
  features of the second endpoint, radial row) against row h of a 256 x 896 weight matrix, adds a bias and gates the sum
  by z ↦ z · logistic z. Because the contraction is a finite sum, it splits along the concatenation: the two node parts
  depend on the node only, so they can be computed once per node (`nodeProj` at column offsets 0 and 320) and looked up
  per edge. `result` states the layer in that arrangement; `sum_split5` is the splitting law that joins it to the
  unsplit contraction, and `sum_onehot` says a one-hot weighted sum over a table's rows reads one row.
-/
import Idealize.ShloMosaic.PureOps.Ideal
import Idealize.ShloMosaic.Lib.ValueIdx

noncomputable section

open scoped BigOperators

namespace Cert.Factored

open Idealize.ShloMosaic Idealize.ShloMosaic.ValueIdx

/-- A 32-bit word read as a row number of a table of n rows: its signed value, kept inside the table. -/
def rowOf (n : Nat) (hn : 0 < n) (w : BitVec 32) : Fin n := ⟨min w.toInt.toNat (n - 1), by omega⟩

/-- A word whose unsigned value is below n ≤ 2^31 names that row. -/
theorem rowOf_val (n : Nat) (hn : 0 < n) (hn' : n ≤ 2 ^ 31) (w : BitVec 32) (hw : w.toNat < n) :
    (rowOf n hn w).val = w.toNat := by
  unfold rowOf
  have h31 : w.toNat < 2 ^ 31 := lt_of_lt_of_le hw hn'
  have hi : w.toInt = (w.toNat : Int) := by
    unfold BitVec.toInt
    rw [if_pos (by omega)]
  show min w.toInt.toNat (n - 1) = w.toNat
  rw [hi, Int.toNat_natCast]
  omega

/-- The gate z ↦ z · logistic z. -/
def gate (z : EReal) : EReal := z * Ideal.logistic z

section Layer

variable (x : (⟨1, ![16384]⟩ : Shape).Idx → BitVec 32) (cond : (⟨2, ![16384, 64]⟩ : Shape).Idx → EReal)
  (rbf : (⟨2, ![262144, 6]⟩ : Shape).Idx → EReal) (ei ej : (⟨1, ![262144]⟩ : Shape).Idx → BitVec 32)
  (embw : (⟨2, ![95, 256]⟩ : Shape).Idx → EReal) (wrbf : (⟨2, ![256, 6]⟩ : Shape).Idx → EReal)
  (brbf : (⟨1, ![256]⟩ : Shape).Idx → EReal) (wlin : (⟨2, ![256, 896]⟩ : Shape).Idx → EReal)
  (blin : (⟨1, ![256]⟩ : Shape).Idx → EReal)

/-- Node n's feature row against columns off … off + 319 of row h of the weights: the embedding part, then the conditioning part. -/
def nodeProj (off : Nat) (hoff : off + 320 ≤ 896) : (⟨2, ![16384, 256]⟩ : Shape).Idx → EReal := fun i =>
  (∑ k : Fin 256, embw (ix2 (rowOf 95 (by decide) (x (ix1 ⟨(i 0).val, idx2_lt0 i⟩))) k)
      * wlin (ix2 ⟨(i 1).val, idx2_lt1 i⟩ ⟨off + k.val, by omega⟩))
  + ∑ c : Fin 64, cond (ix2 ⟨(i 0).val, idx2_lt0 i⟩ c) * wlin (ix2 ⟨(i 1).val, idx2_lt1 i⟩ ⟨off + 256 + c.val, by omega⟩)

theorem nodeProj_ix2 (off : Nat) (hoff : off + 320 ≤ 896) (n : Fin 16384) (h : Fin 256) :
    nodeProj x cond embw wlin off hoff (ix2 n h)
      = (∑ k : Fin 256, embw (ix2 (rowOf 95 (by decide) (x (ix1 n))) k) * wlin (ix2 h ⟨off + k.val, by omega⟩))
        + ∑ c : Fin 64, cond (ix2 n c) * wlin (ix2 h ⟨off + 256 + c.val, by omega⟩) := rfl

/-- Edge e's radial row: the gated affine image of its radial basis values. -/
def radial : (⟨2, ![262144, 256]⟩ : Shape).Idx → EReal := fun i =>
  gate ((∑ r : Fin 6, rbf (ix2 ⟨(i 0).val, idx2_lt0 i⟩ r) * wrbf (ix2 ⟨(i 1).val, idx2_lt1 i⟩ r))
    + brbf (ix1 ⟨(i 1).val, idx2_lt1 i⟩))

theorem radial_ix2 (e : Fin 262144) (k : Fin 256) :
    radial rbf wrbf brbf (ix2 e k) = gate ((∑ r : Fin 6, rbf (ix2 e r) * wrbf (ix2 k r)) + brbf (ix1 k)) := rfl

/-- The pre-activation of the layer at (e, h), arranged as: (first endpoint's node part + second endpoint's node part)
    + radial part, + bias. -/
def preact : (⟨2, ![262144, 256]⟩ : Shape).Idx → EReal := fun i =>
  ((nodeProj x cond embw wlin 0 (by decide) (ix2 (rowOf 16384 (by decide) (ei (ix1 ⟨(i 0).val, idx2_lt0 i⟩))) ⟨(i 1).val, idx2_lt1 i⟩)
      + nodeProj x cond embw wlin 320 (by decide) (ix2 (rowOf 16384 (by decide) (ej (ix1 ⟨(i 0).val, idx2_lt0 i⟩))) ⟨(i 1).val, idx2_lt1 i⟩))
    + ∑ k : Fin 256, radial rbf wrbf brbf (ix2 ⟨(i 0).val, idx2_lt0 i⟩ k) * wlin (ix2 ⟨(i 1).val, idx2_lt1 i⟩ ⟨640 + k.val, by omega⟩))
  + blin (ix1 ⟨(i 1).val, idx2_lt1 i⟩)

theorem preact_ix2 (e : Fin 262144) (h : Fin 256) :
    preact x cond rbf ei ej embw wrbf brbf wlin blin (ix2 e h)
      = ((nodeProj x cond embw wlin 0 (by decide) (ix2 (rowOf 16384 (by decide) (ei (ix1 e))) h)
          + nodeProj x cond embw wlin 320 (by decide) (ix2 (rowOf 16384 (by decide) (ej (ix1 e))) h))
        + ∑ k : Fin 256, radial rbf wrbf brbf (ix2 e k) * wlin (ix2 h ⟨640 + k.val, by omega⟩))
      + blin (ix1 h) := rfl

/-- The layer's result. -/
def result : (⟨2, ![262144, 256]⟩ : Shape).Idx → EReal := fun i =>
  gate (preact x cond rbf ei ej embw wrbf brbf wlin blin i)

end Layer

/-! ## The two laws -/

/-- A sum over a + b consecutive places is the sum over the first a plus the sum over the last b. -/
theorem sum_split2 {M : Type*} [AddCommMonoid M] (a b : Nat) (g : Fin (a + b) → M) :
    ∑ f, g f = (∑ i : Fin a, g ⟨i.val, by omega⟩) + ∑ j : Fin b, g ⟨a + j.val, by omega⟩ :=
  Fin.sum_univ_add g

/-- A sum over 896 places along the cuts 256 | 64 | 256 | 64 | 256, grouped as the layer groups them. -/
theorem sum_split5 {M : Type*} [AddCommMonoid M] (g : Fin 896 → M) :
    ∑ f, g f
      = (((∑ k : Fin 256, g ⟨k.val, by omega⟩) + ∑ c : Fin 64, g ⟨256 + c.val, by omega⟩)
          + ((∑ k : Fin 256, g ⟨320 + k.val, by omega⟩) + ∑ c : Fin 64, g ⟨320 + 256 + c.val, by omega⟩))
        + ∑ k : Fin 256, g ⟨640 + k.val, by omega⟩ := by
  have h1 := sum_split2 640 256 g
  have h2 := sum_split2 320 320 (fun f : Fin (320 + 320) => g ⟨f.val, by omega⟩)
  have h3 := sum_split2 256 64 (fun f : Fin (256 + 64) => g ⟨f.val, by omega⟩)
  have h4 := sum_split2 256 64 (fun f : Fin (256 + 64) => g ⟨320 + f.val, by omega⟩)
  rw [h1, h2, h3, h4]
  simp only [Nat.add_assoc]

/-- A weighted sum whose weights are 1 at one place and 0 elsewhere reads that place. -/
theorem sum_onehot {n : Nat} (a : Fin n) (wt f : Fin n → EReal) (h1 : wt a = 1) (h0 : ∀ v, v ≠ a → wt v = 0) :
    ∑ v : Fin n, wt v * f v = f a := by
  rw [Finset.sum_eq_single a]
  · rw [h1, one_mul]
  · intro v _ hv; rw [h0 v hv, zero_mul]
  · intro h; exact absurd (Finset.mem_univ a) h

/-! ## The two stages, each as a function of the arrays it is handed

The node stage is handed the vocabulary words as a column, the conditioning rows, the embedding table padded to 128
rows, and two pairs of weight blocks laid out contraction-first; the edge stage is handed the radial basis values, the
two looked-up node parts, and the radial weights, radial bias, third weight block and bias, again contraction-first
(biases as one row). These say what each stage computes of what it is handed, before anyone says what the handed
arrays are. -/

/-- One node part from the node stage: row (word of n) of the padded table against a 256 x 256 block, plus the
    conditioning row against a 64 x 256 block. -/
def nodeOut (words : (⟨2, ![16384, 1]⟩ : Shape).Idx → BitVec 32) (cnd : (⟨2, ![16384, 64]⟩ : Shape).Idx → EReal)
    (tab : (⟨2, ![128, 256]⟩ : Shape).Idx → EReal) (we : (⟨2, ![256, 256]⟩ : Shape).Idx → EReal)
    (wc : (⟨2, ![64, 256]⟩ : Shape).Idx → EReal)
    (hw : ∀ n : Fin 16384, (words (ix2 n ⟨0, Nat.one_pos⟩)).toNat < 128) : (⟨2, ![16384, 256]⟩ : Shape).Idx → EReal := fun i =>
  (∑ k : Fin 256, tab (ix2 ⟨(words (ix2 ⟨(i 0).val, idx2_lt0 i⟩ ⟨0, Nat.one_pos⟩)).toNat, hw _⟩ k) * we (ix2 k ⟨(i 1).val, idx2_lt1 i⟩))
  + ∑ q : Fin 64, cnd (ix2 ⟨(i 0).val, idx2_lt0 i⟩ q) * wc (ix2 q ⟨(i 1).val, idx2_lt1 i⟩)

theorem nodeOut_ix2 (words : (⟨2, ![16384, 1]⟩ : Shape).Idx → BitVec 32) (cnd : (⟨2, ![16384, 64]⟩ : Shape).Idx → EReal)
    (tab : (⟨2, ![128, 256]⟩ : Shape).Idx → EReal) (we : (⟨2, ![256, 256]⟩ : Shape).Idx → EReal)
    (wc : (⟨2, ![64, 256]⟩ : Shape).Idx → EReal)
    (hw : ∀ n : Fin 16384, (words (ix2 n ⟨0, Nat.one_pos⟩)).toNat < 128) (n : Fin 16384) (h : Fin 256) :
    nodeOut words cnd tab we wc hw (ix2 n h)
      = (∑ k : Fin 256, tab (ix2 ⟨(words (ix2 n ⟨0, Nat.one_pos⟩)).toNat, hw n⟩ k) * we (ix2 k h))
        + ∑ q : Fin 64, cnd (ix2 n q) * wc (ix2 q h) := rfl

/-- The edge stage: the gated sum of the two looked-up node parts, the radial row against the third block, and the bias. -/
def edgeOut (rb : (⟨2, ![262144, 6]⟩ : Shape).Idx → EReal) (g1 g2 : (⟨2, ![262144, 256]⟩ : Shape).Idx → EReal)
    (wrt : (⟨2, ![6, 256]⟩ : Shape).Idx → EReal) (br : (⟨2, ![1, 256]⟩ : Shape).Idx → EReal)
    (w3 : (⟨2, ![256, 256]⟩ : Shape).Idx → EReal) (bl : (⟨2, ![1, 256]⟩ : Shape).Idx → EReal) :
    (⟨2, ![262144, 256]⟩ : Shape).Idx → EReal := fun i =>
  gate (((g1 (ix2 ⟨(i 0).val, idx2_lt0 i⟩ ⟨(i 1).val, idx2_lt1 i⟩) + g2 (ix2 ⟨(i 0).val, idx2_lt0 i⟩ ⟨(i 1).val, idx2_lt1 i⟩))
      + ∑ k : Fin 256, gate ((∑ r : Fin 6, rb (ix2 ⟨(i 0).val, idx2_lt0 i⟩ r) * wrt (ix2 r k)) + br (ix2 ⟨0, Nat.one_pos⟩ k))
          * w3 (ix2 k ⟨(i 1).val, idx2_lt1 i⟩))
    + bl (ix2 ⟨0, Nat.one_pos⟩ ⟨(i 1).val, idx2_lt1 i⟩))

theorem edgeOut_ix2 (rb : (⟨2, ![262144, 6]⟩ : Shape).Idx → EReal) (g1 g2 : (⟨2, ![262144, 256]⟩ : Shape).Idx → EReal)
    (wrt : (⟨2, ![6, 256]⟩ : Shape).Idx → EReal) (br : (⟨2, ![1, 256]⟩ : Shape).Idx → EReal)
    (w3 : (⟨2, ![256, 256]⟩ : Shape).Idx → EReal) (bl : (⟨2, ![1, 256]⟩ : Shape).Idx → EReal) (e : Fin 262144) (h : Fin 256) :
    edgeOut rb g1 g2 wrt br w3 bl (ix2 e h)
      = gate (((g1 (ix2 e h) + g2 (ix2 e h))
          + ∑ k : Fin 256, gate ((∑ r : Fin 6, rb (ix2 e r) * wrt (ix2 r k)) + br (ix2 ⟨0, Nat.one_pos⟩ k)) * w3 (ix2 k h))
        + bl (ix2 ⟨0, Nat.one_pos⟩ h)) := rfl

end Cert.Factored

end
-- ==== Proof.Compose.lean ====
/-
  The two stages composed are the layer. Hand the node stage the word column, the conditioning rows, the embedding table
  padded with zero rows, and the four weight blocks (columns 0 …, 256 …, 320 …, 576 … of the weight matrix, contraction
  first); hand the edge stage the radial values, each endpoint's looked-up node part, the radial weights contraction
  first, the two biases as rows and the block of columns 640 …. Then the edge stage's output is `result`: a word below 95
  names a row of the padded table that is the embedding table's own row, and every other difference is a renaming of
  indices.
-/
import proofs.«427969_j10883447128784_4_alg».proof.Proof.Spec

noncomputable section

open scoped BigOperators

namespace Cert.Factored

open Idealize.ShloMosaic Idealize.ShloMosaic.ValueIdx

section

variable (x : (⟨1, ![16384]⟩ : Shape).Idx → BitVec 32) (cond : (⟨2, ![16384, 64]⟩ : Shape).Idx → EReal)
  (rbf : (⟨2, ![262144, 6]⟩ : Shape).Idx → EReal) (ei ej : (⟨1, ![262144]⟩ : Shape).Idx → BitVec 32)
  (embw : (⟨2, ![95, 256]⟩ : Shape).Idx → EReal) (wrbf : (⟨2, ![256, 6]⟩ : Shape).Idx → EReal)
  (brbf : (⟨1, ![256]⟩ : Shape).Idx → EReal) (wlin : (⟨2, ![256, 896]⟩ : Shape).Idx → EReal)
  (blin : (⟨1, ![256]⟩ : Shape).Idx → EReal)

/-- A node part as the node stage computes it from the handed arrays is the node part of the layer: the padded table's
    row named by a word below 95 is the embedding table's row. -/
theorem nodeOut_eq_nodeProj (off : Nat) (hoff : off + 320 ≤ 896)
    (we : (⟨2, ![256, 256]⟩ : Shape).Idx → EReal) (wc : (⟨2, ![64, 256]⟩ : Shape).Idx → EReal)
    (hwe : ∀ (k : Fin 256) (h : Fin 256), we (ix2 k h) = wlin (ix2 h ⟨off + k.val, by omega⟩))
    (hwc : ∀ (q : Fin 64) (h : Fin 256), wc (ix2 q h) = wlin (ix2 h ⟨off + 256 + q.val, by omega⟩))
    (hx : ∀ n : Fin 16384, (x (ix1 n)).toNat < 95)
    (hw : ∀ n : Fin 16384, ((fun i : (⟨2, ![16384, 1]⟩ : Shape).Idx => x (ix1 ⟨(i 0).val, idx2_lt0 i⟩)) (ix2 n ⟨0, Nat.one_pos⟩)).toNat < 128)
    (n : Fin 16384) (h : Fin 256) :
    nodeOut (fun i : (⟨2, ![16384, 1]⟩ : Shape).Idx => x (ix1 ⟨(i 0).val, idx2_lt0 i⟩)) cond
        (fun i : (⟨2, ![128, 256]⟩ : Shape).Idx =>
          if h : (i 0).val < 95 then embw (ix2 ⟨(i 0).val, h⟩ ⟨(i 1).val, idx2_lt1 i⟩) else (0 : EReal))
        we wc hw (ix2 n h)
      = nodeProj x cond embw wlin off hoff (ix2 n h) := by
  rw [nodeOut_ix2, nodeProj_ix2]
  congr 1
  · refine Finset.sum_congr rfl fun k _ => ?_
    rw [hwe k h]
    congr 1
    have hn : (x (ix1 n)).toNat < 95 := hx n
    show (if h : (x (ix1 n)).toNat < 95 then embw (ix2 ⟨(x (ix1 n)).toNat, h⟩ k) else (0 : EReal)) = _
    rw [dif_pos hn]
    congr 1
    funext a
    match a with
    | ⟨0, _⟩ => exact Fin.ext (rowOf_val 95 (by decide) (by decide) _ hn).symm
    | ⟨1, _⟩ => rfl
  · refine Finset.sum_congr rfl fun q _ => ?_
    rw [hwc q h]

/-- The edge stage over the looked-up node parts is the layer. -/
theorem stages_eq_result (hx : ∀ n : Fin 16384, (x (ix1 n)).toNat < 95)
    (hw : ∀ n : Fin 16384, ((fun i : (⟨2, ![16384, 1]⟩ : Shape).Idx => x (ix1 ⟨(i 0).val, idx2_lt0 i⟩)) (ix2 n ⟨0, Nat.one_pos⟩)).toNat < 128) :
    edgeOut rbf
      (fun i : (⟨2, ![262144, 256]⟩ : Shape).Idx =>
        nodeOut (fun i : (⟨2, ![16384, 1]⟩ : Shape).Idx => x (ix1 ⟨(i 0).val, idx2_lt0 i⟩)) cond
          (fun i : (⟨2, ![128, 256]⟩ : Shape).Idx =>
            if h : (i 0).val < 95 then embw (ix2 ⟨(i 0).val, h⟩ ⟨(i 1).val, idx2_lt1 i⟩) else (0 : EReal))
          (fun i : (⟨2, ![256, 256]⟩ : Shape).Idx => wlin (ix2 ⟨(i 1).val, idx2_lt1 i⟩ ⟨(i 0).val, by have := idx2_lt0 i; omega⟩))
          (fun i : (⟨2, ![64, 256]⟩ : Shape).Idx => wlin (ix2 ⟨(i 1).val, idx2_lt1 i⟩ ⟨256 + (i 0).val, by have := idx2_lt0 i; omega⟩))
          hw (ix2 (rowOf 16384 (by decide) (ei (ix1 ⟨(i 0).val, idx2_lt0 i⟩))) ⟨(i 1).val, idx2_lt1 i⟩))
      (fun i : (⟨2, ![262144, 256]⟩ : Shape).Idx =>
        nodeOut (fun i : (⟨2, ![16384, 1]⟩ : Shape).Idx => x (ix1 ⟨(i 0).val, idx2_lt0 i⟩)) cond
          (fun i : (⟨2, ![128, 256]⟩ : Shape).Idx =>
            if h : (i 0).val < 95 then embw (ix2 ⟨(i 0).val, h⟩ ⟨(i 1).val, idx2_lt1 i⟩) else (0 : EReal))
          (fun i : (⟨2, ![256, 256]⟩ : Shape).Idx => wlin (ix2 ⟨(i 1).val, idx2_lt1 i⟩ ⟨320 + (i 0).val, by have := idx2_lt0 i; omega⟩))
          (fun i : (⟨2, ![64, 256]⟩ : Shape).Idx => wlin (ix2 ⟨(i 1).val, idx2_lt1 i⟩ ⟨576 + (i 0).val, by have := idx2_lt0 i; omega⟩))
          hw (ix2 (rowOf 16384 (by decide) (ej (ix1 ⟨(i 0).val, idx2_lt0 i⟩))) ⟨(i 1).val, idx2_lt1 i⟩))
      (fun i : (⟨2, ![6, 256]⟩ : Shape).Idx => wrbf (ix2 ⟨(i 1).val, idx2_lt1 i⟩ ⟨(i 0).val, idx2_lt0 i⟩))
      (fun i : (⟨2, ![1, 256]⟩ : Shape).Idx => brbf (ix1 ⟨(i 1).val, idx2_lt1 i⟩))
      (fun i : (⟨2, ![256, 256]⟩ : Shape).Idx => wlin (ix2 ⟨(i 1).val, idx2_lt1 i⟩ ⟨640 + (i 0).val, by have := idx2_lt0 i; omega⟩))
      (fun i : (⟨2, ![1, 256]⟩ : Shape).Idx => blin (ix1 ⟨(i 1).val, idx2_lt1 i⟩))
    = result x cond rbf ei ej embw wrbf brbf wlin blin := by
  funext i
  obtain ⟨e, h, rfl⟩ : ∃ (e : Fin 262144) (h : Fin 256), i = ix2 e h := ⟨i 0, i 1, eq_ix2 i⟩
  rw [edgeOut_ix2]
  show gate _ = gate (preact x cond rbf ei ej embw wrbf brbf wlin blin (ix2 e h))
  rw [preact_ix2]
  congr 1
  congr 1
  congr 1
  · congr 1
    · exact nodeOut_eq_nodeProj x cond embw wlin 0 (by decide) _ _
        (fun k h => by congr 1; funext a; match a with | ⟨0, _⟩ => rfl | ⟨1, _⟩ => exact Fin.ext (Nat.zero_add _).symm)
        (fun q h => by congr 1)
        hx hw _ h
    · exact nodeOut_eq_nodeProj x cond embw wlin 320 (by decide) _ _
        (fun k h => rfl)
        (fun q h => by congr 1)
        hx hw _ h

end

end Cert.Factored

end
-- ==== Proof.Node.lean ====
/-
  The node stage's two outputs as whole arrays. At grid point t the stage is handed rows 2048 t … 2048 t + 2047 of the
  word column and of the conditioning rows, and the whole of the padded table and of the four weight blocks; it writes
  rows 2048 t … of each output. Entry (r, h) of what it writes is the one-hot row of word r against the table (which
  reads the table's row named by the word), contracted with a 256 x 256 block, plus the conditioning row contracted with
  a 64 x 256 block. The eight points' row bands tile the 16384 rows.
-/
import proofs.«427969_j10883447128784_4_alg».proof.Proof.Gen.KernelIdeal.Frame
import proofs.«427969_j10883447128784_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember
import Idealize.ShloMosaic.Lib.StableHlo.Predicate

set_option maxRecDepth 16384

noncomputable section

namespace Cert.KernelIdeal.NodeStage

open Cert.KernelIdeal Cert.KernelIdeal.Gen Cert.Factored
open Idealize.ShloMosaic Idealize.ShloMosaic.TcCoe Idealize.SL.Sem Idealize.ShloMosaic.ValueIdx

/-! ## One point's arithmetic, entry by entry

Everything here is about vectors of the literal block shapes, at the extended reals. -/

/-- The weight a word w gives to table row v: 1 when v is the word, 0 otherwise. The comparison yields one bit, the
    bit is widened to a 32-bit word and read as a signed integer, so it is the integer 1 or 0. -/
theorem weight_scalar (w : BitVec 32) (v : BitVec 32) :
    FloatOps.sitofp (F := Ideal) .f32 ((IntOp.cmpi .eq v w).setWidth 32) = if v = w then 1 else 0 := by
  by_cases h : v = w
  · rw [if_pos h, StableHlo.Predicate.cmpi_eq_iff.mpr h]
    show (((BitVec.setWidth 32 1#1).toInt : ℝ) : EReal) = 1
    rw [show (BitVec.setWidth 32 1#1).toInt = 1 from by decide]
    norm_num
  · rw [if_neg h, eq_zero_of_ne_one (fun e => h (StableHlo.Predicate.cmpi_eq_iff.mp e))]
    show (((BitVec.setWidth 32 0#1).toInt : ℝ) : EReal) = 0
    rw [show (BitVec.setWidth 32 0#1).toInt = 0 from by decide]
    norm_num

/-- A plain product of an M x K by a K x N matrix into the zero matrix, read at (a, b): the row-by-column sum. -/
theorem product_apply {M K N : Nat} {φ₁ φ₂ : FTy} (d : DotDims ⟨2, ![M, K]⟩ ⟨2, ![K, N]⟩ ⟨2, ![M, N]⟩)
    (hd : d = DotDims.plain M K N) (A : FVec Ideal ⟨2, ![M, K]⟩ φ₁) (B : FVec Ideal ⟨2, ![K, N]⟩ φ₂) (a : Fin M) (b : Fin N) :
    matmul d none A B (constant (F := Ideal) ⟨2, ![M, N]⟩ .f32 0x00000000#32) (ix2 a b) = ∑ k : Fin K, A (ix2 a k) * B (ix2 k b) := by
  subst hd
  rw [matmul_zero_eq_dotGeneral]
  exact StackMember.dotGeneral_plain_apply none A B a b

theorem dims_table : dot_S2048x128_S128x256_S2048x256_1_0_0_1_n_n = DotDims.plain 2048 128 256 := rfl
theorem dims_embed : dot_S2048x256_S256x256_S2048x256_1_0_0_1_n_n = DotDims.plain 2048 256 256 := rfl
theorem dims_cond : dot_S2048x64_S64x256_S2048x256_1_0_0_1_n_n = DotDims.plain 2048 64 256 := rfl

/-- The one-hot weights at (r, v): 1 when v is row r's word, 0 otherwise. Column v of the counting matrix holds v,
    and the word column is laid along every column. -/
theorem weight_apply (v0 : Vec Ideal S2048x1 .i32) (r : Fin 2048) (v : Fin 128) :
    (sitofp (F := Ideal) .f32 (extui 32 (cmpi .eq (iota .tc S2048x128 32 [1] iota_S2048x128_d1_w32)
        (broadcastTo S2048x128 (shapeCast S2048x1 v0 shapeCasts_S2048x1_S2048x1) broadcasts_S2048x1_S2048x128)) natLt_1_32)
      : FVec Ideal S2048x128 .f32) (ix2 r v)
      = if BitVec.ofNat 32 v.val = v0 (ix2 r ⟨0, Nat.one_pos⟩) then 1 else 0 := by
  have e1 : iota .tc S2048x128 32 [1] iota_S2048x128_d1_w32 (ix2 r v) = BitVec.ofNat 32 v.val :=
    iota_single_apply .tc S2048x128 32 1 iota_S2048x128_d1_w32 (ix2 r v)
  have e2 : broadcastTo S2048x128 (shapeCast S2048x1 v0 shapeCasts_S2048x1_S2048x1) broadcasts_S2048x1_S2048x128 (ix2 r v)
      = v0 (ix2 r ⟨0, Nat.one_pos⟩) := by
    rw [shapeCast_self]
    refine broadcastTo_apply v0 _ (ix2 r v) (ix2 r ⟨0, Nat.one_pos⟩) fun a => ?_
    match a with
    | ⟨0, _⟩ => rfl
    | ⟨1, _⟩ => rfl
  show FloatOps.sitofp (F := Ideal) .f32 ((IntOp.cmpi .eq _ _).setWidth 32) = _
  rw [e1, e2]
  exact weight_scalar _ _

/-- The one-hot rows against the table: entry (r, k) is the table's entry (word of r, k), for a word below 128. -/
theorem onehot_apply (v0 : Vec Ideal S2048x1 .i32) (v8 : Vec Ideal S128x256 .bf16) (r : Fin 2048) (k : Fin 256)
    (hlt : (v0 (ix2 r ⟨0, Nat.one_pos⟩)).toNat < 128) :
    k0_pay1 (F := Ideal) v0 v8 (ix2 r k) = v8 (ix2 ⟨(v0 (ix2 r ⟨0, Nat.one_pos⟩)).toNat, hlt⟩ k) := by
  unfold k0_pay1
  dsimp only
  show matmul dot_S2048x128_S128x256_S2048x256_1_0_0_1_n_n none _ _ (constant (F := Ideal) S2048x256 .f32 0x00000000#32) (ix2 r k) = _
  refine (product_apply _ dims_table _ _ r k).trans ?_
  rw [shapeCast_self v8]
  refine sum_onehot ⟨(v0 (ix2 r ⟨0, Nat.one_pos⟩)).toNat, hlt⟩ _ (fun v => v8 (ix2 v k)) ?_ ?_
  · refine (weight_apply v0 r _).trans (if_pos ?_)
    apply BitVec.eq_of_toNat_eq
    rw [BitVec.toNat_ofNat]
    show (v0 (ix2 r ⟨0, Nat.one_pos⟩)).toNat % 2 ^ 32 = _
    omega
  · intro v hv
    refine (weight_apply v0 r v).trans (if_neg fun e => hv (Fin.ext ?_))
    show v.val = (v0 (ix2 r ⟨0, Nat.one_pos⟩)).toNat
    rw [← e, BitVec.toNat_ofNat]
    have := v.isLt
    omega

/-- One entry of what a point computes: the table row named by the word against the embedding block, plus the
    conditioning row against the conditioning block. -/
theorem entry_apply (v0 : Vec Ideal S2048x1 .i32) (v8 : Vec Ideal S128x256 .bf16) (v12 : Vec Ideal S2048x64 .f32)
    (v14 : Vec Ideal S256x256 .bf16) (v17 : Vec Ideal S64x256 .bf16) (r : Fin 2048) (h : Fin 256)
    (hlt : (v0 (ix2 r ⟨0, Nat.one_pos⟩)).toNat < 128) :
    k0_pay3 (F := Ideal) v0 v8 v12 v14 v17 (ix2 r h)
      = (∑ k : Fin 256, v8 (ix2 ⟨(v0 (ix2 r ⟨0, Nat.one_pos⟩)).toNat, hlt⟩ k) * v14 (ix2 k h))
        + ∑ q : Fin 64, v12 (ix2 r q) * v17 (ix2 q h) := by
  unfold k0_pay3 k0_pay2
  dsimp only
  show matmul dot_S2048x256_S256x256_S2048x256_1_0_0_1_n_n none _ _ (constant (F := Ideal) S2048x256 .f32 0x00000000#32) (ix2 r h)
      + matmul dot_S2048x64_S64x256_S2048x256_1_0_0_1_n_n none _ _ (constant (F := Ideal) S2048x256 .f32 0x00000000#32) (ix2 r h) = _
  refine congrArg₂ (· + ·) ((product_apply _ dims_embed _ _ r h).trans ?_) ((product_apply _ dims_cond _ _ r h).trans ?_)
  · rw [shapeCast_self]
    exact Finset.sum_congr rfl fun k _ => congrArg (· * v14 (ix2 k h)) (onehot_apply v0 v8 r k hlt)
  · rw [shapeCast_self]
    rfl

/-- The second output's arithmetic is the first's, on the other pair of blocks. -/
theorem second_is_first (v0 : Vec Ideal S2048x1 .i32) (v8 : Vec Ideal S128x256 .bf16) (v12 : Vec Ideal S2048x64 .f32)
    (v21 : Vec Ideal S256x256 .bf16) (v24 : Vec Ideal S64x256 .bf16) :
    k0_pay4 (F := Ideal) v0 v8 v12 v21 v24 = k0_pay3 (F := Ideal) v0 v8 v12 v21 v24 := rfl

/-! ## The blocks a point is handed, and what it writes back -/

section Blocks

variable (V : (c : Dev nD) → (b : Ref sig .tc) → Buf (Elt Ideal) ((c : Thread nD τ).loc b)) (c : Dev nD)
  (words : S16384x1.Idx → BitVec 32) (cnd : S16384x64.Idx → EReal) (tab : S128x256.Idx → EReal)
  (we : S256x256.Idx → EReal) (wc : S64x256.Idx → EReal)

theorem zeros : (![0, 0] : Fin 2 → Nat) = fun _ => 0 := funext fun a => by fin_cases a <;> rfl

/-- The windows' block indices over the grid: the row-banded windows sit at block (t, 0), the whole-array windows at (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The word block at point t is rows 2048 t … of the word column. -/
theorem words_block (h0 : V c main_v0 = words) (t : Fin cfg0.N) (r : Fin 2048) (n : Fin 16384) (hn : n.val = 2048 * t.val + r.val) :
    (iblk0 V c 0 t : Vec Ideal S2048x1 .i32) (ix2 r ⟨0, Nat.one_pos⟩) = words (ix2 n ⟨0, Nat.one_pos⟩) := by
  obtain ⟨⟨e0, e1⟩, -⟩ := index_facts t
  unfold iblk0
  rw [View.read_apply]
  show V c main_v0 _ = _
  rw [h0]
  congr 1
  funext a
  apply Fin.ext
  match a with
  | ⟨0, _⟩ => show win0_0.index t (0 : Fin 2) * 2048 + 1 * r.val = n.val; rw [e0, hn]; omega
  | ⟨1, _⟩ => show win0_0.index t (1 : Fin 2) * 1 + 1 * 0 = 0; rw [e1]

/-- The conditioning block at point t is rows 2048 t … of the conditioning rows. -/
theorem cond_block (h1 : V c main_arg1 = cnd) (t : Fin cfg0.N) (r : Fin 2048) (q : Fin 64) (n : Fin 16384)
    (hn : n.val = 2048 * t.val + r.val) :
    (iblk0 V c 1 t : Vec Ideal S2048x64 .f32) (ix2 r q) = cnd (ix2 n q) := by
  obtain ⟨-, ⟨e0, e1⟩, -⟩ := index_facts t
  unfold iblk0
  rw [View.read_apply]
  show V c main_arg1 _ = _
  rw [h1]
  congr 1
  funext a
  apply Fin.ext
  match a with
  | ⟨0, _⟩ => show win0_1.index t (0 : Fin 2) * 2048 + 1 * r.val = n.val; rw [e0, hn]; omega
  | ⟨1, _⟩ => show win0_1.index t (1 : Fin 2) * 64 + 1 * q.val = q.val; rw [e1]; omega

/-- The table's window is the whole table at every point. -/
theorem table_block (h2 : V c main_v2 = tab) (t : Fin cfg0.N) : (iblk0 V c 2 t : Vec Ideal S128x256 .bf16) = tab := by
  obtain ⟨-, -, ⟨e0, e1⟩, -⟩ := index_facts t
  funext x
  unfold iblk0
  rw [View.read_apply]
  show V c main_v2 _ = _
  rw [h2]
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 256 + 1 * (x 1).val = (x 1).val; rw [e1]; omega

/-- So are the four weight blocks' windows. -/
theorem embed_block_a (h3 : V c main_v5 = we) (t : Fin cfg0.N) : (iblk0 V c 3 t : Vec Ideal S256x256 .bf16) = we := by
  obtain ⟨-, -, -, ⟨e0, e1⟩, -⟩ := index_facts t
  funext x
  unfold iblk0
  rw [View.read_apply]
  show V c main_v5 _ = _
  rw [h3]
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

theorem cond_block_a (h4 : V c main_v8 = wc) (t : Fin cfg0.N) : (iblk0 V c 4 t : Vec Ideal S64x256 .bf16) = wc := by
  obtain ⟨-, -, -, -, ⟨e0, e1⟩, -⟩ := index_facts t
  funext x
  unfold iblk0
  rw [View.read_apply]
  show V c main_v8 _ = _
  rw [h4]
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 256 + 1 * (x 1).val = (x 1).val; rw [e1]; omega

theorem embed_block_b (h5 : V c main_v11 = we) (t : Fin cfg0.N) : (iblk0 V c 5 t : Vec Ideal S256x256 .bf16) = we := by
  obtain ⟨-, -, -, -, -, ⟨e0, e1⟩, -⟩ := index_facts t
  funext x
  unfold iblk0
  rw [View.read_apply]
  show V c main_v11 _ = _
  rw [h5]
  congr 1
  funext a
  apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

theorem cond_block_b (h6 : V c main_v14 = wc) (t : Fin cfg0.N) : (iblk0 V c 6 t : Vec Ideal S64x256 .bf16) = wc := by
  obtain ⟨-, -, -, -, -, -, ⟨e0, e1⟩, -⟩ := index_facts t
  funext x
  unfold iblk0
  rw [View.read_apply]
  show V c main_v14 _ = _
  rw [h6]
  congr 1
  funext a
  apply Fin.ext
  match a with
  | ⟨0, _⟩ => show win0_6.index t (0 : Fin 2) * 64 + 1 * (x 0).val = (x 0).val; rw [e0]; omega
  | ⟨1, _⟩ => show win0_6.index t (1 : Fin 2) * 256 + 1 * (x 1).val = (x 1).val; rw [e1]; omega

/-- One entry of what a point computes, once its blocks are known: blocks that hold row n of the words and of the
    conditioning rows at their row r, and the whole table and weight blocks, give entry (n, h) of the node part. -/
theorem point_entry (x0 : Vec Ideal S2048x1 .i32) (x1 : Vec Ideal S2048x64 .f32) (x2 : Vec Ideal S128x256 .bf16)
    (x3 : Vec Ideal S256x256 .bf16) (x4 : Vec Ideal S64x256 .bf16) (r : Fin 2048) (h : Fin 256) (n : Fin 16384)
    (e0 : x0 (ix2 r ⟨0, Nat.one_pos⟩) = words (ix2 n ⟨0, Nat.one_pos⟩))
    (e1 : ∀ q : Fin 64, x1 (ix2 r q) = cnd (ix2 n q)) (e2 : x2 = tab) (e3 : x3 = we) (e4 : x4 = wc)
    (hw : ∀ n : Fin 16384, (words (ix2 n ⟨0, Nat.one_pos⟩)).toNat < 128) :
    k0_pay3 (F := Ideal) x0 x2 x1 x3 x4 (ix2 r h) = nodeOut words cnd tab we wc hw (ix2 n h) := by
  have hlt : (x0 (ix2 r ⟨0, Nat.one_pos⟩)).toNat < 128 := by rw [e0]; exact hw n
  have hrow : (⟨(x0 (ix2 r ⟨0, Nat.one_pos⟩)).toNat, hlt⟩ : Fin 128) = ⟨(words (ix2 n ⟨0, Nat.one_pos⟩)).toNat, hw n⟩ :=
    Fin.ext (congrArg BitVec.toNat e0)
  rw [entry_apply x0 x2 x1 x3 x4 r h hlt, nodeOut_ix2, hrow, e2, e3, e4]
  exact congrArg _ (Finset.sum_congr rfl fun q _ => congrArg (· * wc (ix2 q h)) (e1 q))

/-- An array index lies in point t's row band of an output exactly when each coordinate lies in the band's range. -/
theorem mem_band_first (t : Fin cfg0.N) (i : S16384x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v22_0).slice (win0_7.rect t)).set ↔ _
  rw [View.set_slice_whole, Rect.mem_set_unit]
  exact Iff.rfl

theorem mem_band_second (t : Fin cfg0.N) (i : S16384x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v22_1).slice (win0_8.rect t)).set ↔ _
  rw [View.set_slice_whole, Rect.mem_set_unit]
  exact Iff.rfl

/-- Row n of an output lies in the band of point n / 2048: the eight bands tile the 16384 rows. -/
theorem cover_first (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 8 := N_0
  have ht : (i 0).val / 2048 < cfg0.N := by rw [hN]; omega
  obtain ⟨-, -, -, -, -, -, -, ⟨e0, e1⟩, -⟩ := index_facts ⟨(i 0).val / 2048, ht⟩
  refine ⟨⟨(i 0).val / 2048, ht⟩, flush0_7 _, ?_⟩
  rw [mem_band_first]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, ht⟩ (1 : Fin 2) * 256 ≤ (i 1).val
      ∧ (i 1).val < win0_7.index ⟨(i 0).val / 2048, ht⟩ (1 : Fin 2) * 256 + 256
    rw [e1]
    omega

theorem cover_second (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  have hN : cfg0.N = 8 := N_0
  have ht : (i 0).val / 2048 < cfg0.N := by rw [hN]; omega
  obtain ⟨-, -, -, -, -, -, -, -, ⟨e0, e1⟩⟩ := index_facts ⟨(i 0).val / 2048, ht⟩
  refine ⟨⟨(i 0).val / 2048, ht⟩, flush0_8 _, ?_⟩
  rw [mem_band_second]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_8.index ⟨(i 0).val / 2048, ht⟩ (1 : Fin 2) * 256 ≤ (i 1).val
      ∧ (i 1).val < win0_8.index ⟨(i 0).val / 2048, ht⟩ (1 : Fin 2) * 256 + 256
    rw [e1]
    omega

/-- What point t writes back to the first output is rows 2048 t … of the node part on the first pair of blocks. -/
theorem flushed_first (h0 : V c main_v0 = words) (h1 : V c main_arg1 = cnd) (h2 : V c main_v2 = tab)
    (h3 : V c main_v5 = we) (h4 : V c main_v8 = wc)
    (hw : ∀ n : Fin 16384, (words (ix2 n ⟨0, Nat.one_pos⟩)).toNat < 128) (t : Fin cfg0.N) :
    (dat0 (F := Ideal) V c).flushed 7 t = ((cfg0.win 7).blk t).view.read (Elt Ideal) (nodeOut words cnd tab we wc hw) := by
  show (cfg0.win 7).cut (grid0.coords t) ((dat0 V c).after 7 t) = _
  rw [after0_7]
  unfold out0_7
  rw [View.canon_unit_zero zeros]
  simp only [View.ld_unit_zero (S := S2048x1) zeros, View.ld_unit_zero (S := S2048x64) zeros, View.ld_unit_zero (S := S128x256) zeros,
    View.ld_unit_zero (S := S256x256) zeros, View.ld_unit_zero (S := S64x256) zeros]
  obtain ⟨-, -, -, -, -, -, -, ⟨e0, e1⟩, -⟩ := index_facts t
  have hN : cfg0.N = 8 := N_0
  have htN : t.val < 8 := hN ▸ t.isLt
  funext j
  have hr : (j 0).val < 2048 := (j 0).isLt
  have hh : (j 1).val < 256 := (j 1).isLt
  have hn : 2048 * t.val + (j 0).val < 16384 := by omega
  have hx : (cfg0.win 7).xinj (grid0.coords t) j = ix2 (⟨(j 0).val, hr⟩ : Fin 2048) (⟨(j 1).val, hh⟩ : Fin 256) := by
    funext a
    apply Fin.ext
    match a with
    | ⟨0, _⟩ => rfl
    | ⟨1, _⟩ => rfl
  have hemb : ((cfg0.win 7).blk t).view.emb j = ix2 (⟨2048 * t.val + (j 0).val, hn⟩ : Fin 16384) (⟨(j 1).val, hh⟩ : Fin 256) := by
    funext a
    apply Fin.ext
    match a with
    | ⟨0, _⟩ => show win0_7.index t (0 : Fin 2) * 2048 + 1 * (j 0).val = 2048 * t.val + (j 0).val; rw [e0]; omega
    | ⟨1, _⟩ => show win0_7.index t (1 : Fin 2) * 256 + 1 * (j 1).val = (j 1).val; rw [e1]; omega
  refine (congrArg (k0_pay3 (F := Ideal) (iblk0 V c 0 t) (iblk0 V c 2 t) (iblk0 V c 1 t) (iblk0 V c 3 t) (iblk0 V c 4 t)) hx).trans ?_
  refine (point_entry words cnd tab we wc (iblk0 V c 0 t) (iblk0 V c 1 t) (iblk0 V c 2 t) (iblk0 V c 3 t) (iblk0 V c 4 t)
    ⟨(j 0).val, hr⟩ ⟨(j 1).val, hh⟩ ⟨2048 * t.val + (j 0).val, hn⟩
    (words_block V c words h0 t ⟨(j 0).val, hr⟩ ⟨2048 * t.val + (j 0).val, hn⟩ rfl)
    (fun q => cond_block V c cnd h1 t ⟨(j 0).val, hr⟩ q ⟨2048 * t.val + (j 0).val, hn⟩ rfl)
    (table_block V c tab h2 t) (embed_block_a V c we h3 t) (cond_block_a V c wc h4 t) hw).trans ?_
  exact congrArg (nodeOut words cnd tab we wc hw) hemb.symm

/-- What point t writes back to the second output is rows 2048 t … of the node part on the second pair of blocks. -/
theorem flushed_second (h0 : V c main_v0 = words) (h1 : V c main_arg1 = cnd) (h2 : V c main_v2 = tab)
    (h5 : V c main_v11 = we) (h6 : V c main_v14 = wc)
    (hw : ∀ n : Fin 16384, (words (ix2 n ⟨0, Nat.one_pos⟩)).toNat < 128) (t : Fin cfg0.N) :
    (dat0 (F := Ideal) V c).flushed 8 t = ((cfg0.win 8).blk t).view.read (Elt Ideal) (nodeOut words cnd tab we wc hw) := by
  show (cfg0.win 8).cut (grid0.coords t) ((dat0 V c).after 8 t) = _
  rw [after0_8]
  unfold out0_8
  rw [View.canon_unit_zero zeros]
  simp only [View.ld_unit_zero (S := S2048x1) zeros, View.ld_unit_zero (S := S2048x64) zeros, View.ld_unit_zero (S := S128x256) zeros,
    View.ld_unit_zero (S := S256x256) zeros, View.ld_unit_zero (S := S64x256) zeros]
  obtain ⟨-, -, -, -, -, -, -, -, ⟨e0, e1⟩⟩ := index_facts t
  have hN : cfg0.N = 8 := N_0
  have htN : t.val < 8 := hN ▸ t.isLt
  funext j
  have hr : (j 0).val < 2048 := (j 0).isLt
  have hh : (j 1).val < 256 := (j 1).isLt
  have hn : 2048 * t.val + (j 0).val < 16384 := by omega
  have hx : (cfg0.win 8).xinj (grid0.coords t) j = ix2 (⟨(j 0).val, hr⟩ : Fin 2048) (⟨(j 1).val, hh⟩ : Fin 256) := by
    funext a
    apply Fin.ext
    match a with
    | ⟨0, _⟩ => rfl
    | ⟨1, _⟩ => rfl
  have hemb : ((cfg0.win 8).blk t).view.emb j = ix2 (⟨2048 * t.val + (j 0).val, hn⟩ : Fin 16384) (⟨(j 1).val, hh⟩ : Fin 256) := by
    funext a
    apply Fin.ext
    match a with
    | ⟨0, _⟩ => show win0_8.index t (0 : Fin 2) * 2048 + 1 * (j 0).val = 2048 * t.val + (j 0).val; rw [e0]; omega
    | ⟨1, _⟩ => show win0_8.index t (1 : Fin 2) * 256 + 1 * (j 1).val = (j 1).val; rw [e1]; omega
  refine (congrArg (k0_pay4 (F := Ideal) (iblk0 V c 0 t) (iblk0 V c 2 t) (iblk0 V c 1 t) (iblk0 V c 5 t) (iblk0 V c 6 t)) hx).trans ?_
  refine (congrFun (second_is_first (iblk0 V c 0 t) (iblk0 V c 2 t) (iblk0 V c 1 t) (iblk0 V c 5 t) (iblk0 V c 6 t)) _).trans ?_
  refine (point_entry words cnd tab we wc (iblk0 V c 0 t) (iblk0 V c 1 t) (iblk0 V c 2 t) (iblk0 V c 5 t) (iblk0 V c 6 t)
    ⟨(j 0).val, hr⟩ ⟨(j 1).val, hh⟩ ⟨2048 * t.val + (j 0).val, hn⟩
    (words_block V c words h0 t ⟨(j 0).val, hr⟩ ⟨2048 * t.val + (j 0).val, hn⟩ rfl)
    (fun q => cond_block V c cnd h1 t ⟨(j 0).val, hr⟩ q ⟨2048 * t.val + (j 0).val, hn⟩ rfl)
    (table_block V c tab h2 t) (embed_block_b V c we h5 t) (cond_block_b V c wc h6 t) hw).trans ?_
  exact congrArg (nodeOut words cnd tab we wc hw) hemb.symm

end Blocks

variable (V : (c : Dev nD) → (b : Ref sig .tc) → Buf (Elt Ideal) ((c : Thread nD τ).loc b)) (c : Dev nD)
  (words : S16384x1.Idx → BitVec 32) (cnd : S16384x64.Idx → EReal) (tab : S128x256.Idx → EReal)
  (ae : S256x256.Idx → EReal) (ac : S64x256.Idx → EReal) (be : S256x256.Idx → EReal) (bc : S64x256.Idx → EReal)

/-- The first output array after the stage's eight points. -/
theorem out7 (h0 : V c main_v0 = words) (h1 : V c main_arg1 = cnd) (h2 : V c main_v2 = tab)
    (h3 : V c main_v5 = ae) (h4 : V c main_v8 = ac) (h5 : V c main_v11 = be) (h6 : V c main_v14 = bc)
    (hw : ∀ n : Fin 16384, (words (ix2 n ⟨0, Nat.one_pos⟩)).toNat < 128) :
    (dat0 (F := Ideal) V c).arrAt 7 cfg0.N = nodeOut words cnd tab ae ac hw := by
  exact (dat0 (F := Ideal) V c).arrAt_eq_of_cover 7 (nodeOut words cnd tab ae ac hw)
    (fun t _ => flushed_first V c words cnd tab ae ac h0 h1 h2 h3 h4 hw t) cover_first

/-- The second output array after the stage's eight points. -/
theorem out8 (h0 : V c main_v0 = words) (h1 : V c main_arg1 = cnd) (h2 : V c main_v2 = tab)
    (h3 : V c main_v5 = ae) (h4 : V c main_v8 = ac) (h5 : V c main_v11 = be) (h6 : V c main_v14 = bc)
    (hw : ∀ n : Fin 16384, (words (ix2 n ⟨0, Nat.one_pos⟩)).toNat < 128) :
    (dat0 (F := Ideal) V c).arrAt 8 cfg0.N = nodeOut words cnd tab be bc hw := by
  exact (dat0 (F := Ideal) V c).arrAt_eq_of_cover 8 (nodeOut words cnd tab be bc hw)
    (fun t _ => flushed_second V c words cnd tab be bc h0 h1 h2 h5 h6 hw t) cover_second

end Cert.KernelIdeal.NodeStage

end
-- ==== Proof.Edge.lean ====
/-
  The edge stage's output as a whole array. At grid point t the stage is handed rows 4096 t … 4096 t + 4095 of the
  radial basis values and of the two looked-up node parts, and the whole of the radial weights, the radial bias, the third
  weight block and the bias; it writes rows 4096 t … of the output. Entry (r, h) of what it writes is the gate of: the two
  node parts added, plus the radial row (the gated affine image of the 6 radial values) contracted with the third block,
  plus the bias. The 64 points' row bands tile the 262144 rows.
-/
import proofs.«427969_j10883447128784_4_alg».proof.Proof.Gen.KernelIdeal.Frame
import proofs.«427969_j10883447128784_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

set_option maxRecDepth 16384

noncomputable section

namespace Cert.KernelIdeal.EdgeStage

open Cert.KernelIdeal Cert.KernelIdeal.Gen Cert.Factored
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)
  (rb : S262144x6.Idx → EReal) (g1 g2 : S262144x256.Idx → EReal) (wrt : S6x256.Idx → EReal)
  (br : S1x256.Idx → EReal) (w3 : S256x256.Idx → EReal) (bl : S1x256.Idx → EReal)

/-! ## One entry of what a grid point computes -/

/-- The gate read at an index: a vector times its own logistic, entry by entry. -/
theorem gate_apply {s : Shape} (Z : FVec Ideal s .f32) (i : s.Idx) : mulf Z (logistic Z) i = gate (Z i) := rfl

/-- Narrowing the format changes no entry. -/
theorem narrowed_apply {s : Shape} (a : FVec Ideal s .f32) (hb : FTy.bits .bf16 < FTy.bits .f32) (i : s.Idx) :
    (truncf .bf16 a hb : FVec Ideal s .bf16) i = a i := rfl

/-- The 4096 x 6 by 6 x 256 product into a zero accumulator: entry (r, k) is row r against column k. -/
theorem radialProduct_apply (A : FVec Ideal S4096x6 .bf16) (B : FVec Ideal S6x256 .bf16) (r : Fin 4096) (k : Fin 256) :
    matmul dot_S4096x6_S6x256_S4096x256_1_0_0_1_n_n none A B (constant S4096x256 .f32 0x00000000#32) (ix2 r k)
      = ∑ q : Fin 6, A (ix2 r q) * B (ix2 q k) :=
  (congrFun (matmul_zero_eq_dotGeneral dot_S4096x6_S6x256_S4096x256_1_0_0_1_n_n none A B) (ix2 r k)).trans
    (StackMember.dotGeneral_plain_apply (m := 4096) (n := 256) (k := 6) none A B r k)

/-- The 4096 x 256 by 256 x 256 product into a zero accumulator: entry (r, h) is row r against column h. -/
theorem thirdProduct_apply (A : FVec Ideal S4096x256 .bf16) (B : FVec Ideal S256x256 .bf16) (r : Fin 4096) (h : Fin 256) :
    matmul dot_S4096x256_S256x256_S4096x256_1_0_0_1_n_n none A B (constant S4096x256 .f32 0x00000000#32) (ix2 r h)
      = ∑ k : Fin 256, A (ix2 r k) * B (ix2 k h) :=
  (congrFun (matmul_zero_eq_dotGeneral dot_S4096x256_S256x256_S4096x256_1_0_0_1_n_n none A B) (ix2 r h)).trans
    (StackMember.dotGeneral_plain_apply (m := 4096) (n := 256) (k := 256) none A B r h)

/-- One row laid along all 4096 rows: entry (r, k) is the row's entry k. -/
theorem rowAlong_apply (v : FVec Ideal S1x256 .f32) (r : Fin 4096) (k : Fin 256) :
    broadcastTo S4096x256 v broadcasts_S1x256_S4096x256 (ix2 r k) = v (ix2 ⟨0, Nat.one_pos⟩ k) :=
  broadcastTo_apply v broadcasts_S1x256_S4096x256 (ix2 r k) (ix2 ⟨0, Nat.one_pos⟩ k) (fun a => by
    match a with
    | ⟨0, _⟩ => rfl
    | ⟨1, _⟩ => rfl)

/-- Entry (r, h) of what a grid point stores, from the seven blocks it loads. -/
theorem payload_apply (v0 : FVec Ideal S4096x6 .f32) (v2 : FVec Ideal S6x256 .bf16) (v5 : FVec Ideal S1x256 .f32)
    (v12 v14 : FVec Ideal S4096x256 .f32) (v17 : FVec Ideal S256x256 .bf16) (v21 : FVec Ideal S1x256 .f32)
    (r : Fin 4096) (h : Fin 256) :
    k1_pay1 (F := Ideal) v0 v2 v5 v12 v14 v17 v21 (ix2 r h)
      = gate (((v12 (ix2 r h) + v14 (ix2 r h))
          + ∑ k : Fin 256, gate ((∑ q : Fin 6, v0 (ix2 r q) * v2 (ix2 q k)) + v5 (ix2 ⟨0, Nat.one_pos⟩ k)) * v17 (ix2 k h))
        + v21 (ix2 ⟨0, Nat.one_pos⟩ h)) := by
  unfold k1_pay1
  simp only [shapeCast_self]
  refine (gate_apply _ _).trans (congrArg gate ?_)
  refine (addf_apply _ _ _).trans (congrArg₂ (· + ·) ?_ (rowAlong_apply v21 r h))
  refine (addf_apply _ _ _).trans (congrArg₂ (· + ·) (addf_apply _ _ _) ?_)
  refine (thirdProduct_apply _ v17 r h).trans (Finset.sum_congr rfl fun k _ => congrArg (· * v17 (ix2 k h)) ?_)
  refine (narrowed_apply _ _ _).trans ((gate_apply _ _).trans (congrArg gate ?_))
  refine (addf_apply _ _ _).trans (congrArg₂ (· + ·) ?_ (rowAlong_apply v5 r k))
  exact (radialProduct_apply _ v2 r k).trans (Finset.sum_congr rfl fun q _ => congrArg (· * v2 (ix2 q k)) (narrowed_apply v0 _ (ix2 r q)))

/-! ## The blocks a grid point is handed -/

theorem zeroOffsets : (![0, 0] : Fin 2 → Nat) = fun _ => 0 := funext fun a => by fin_cases a <;> rfl

/-- The stage runs over 64 grid points. -/
theorem points : cfg1.N = 64 := N_1

/-- The printed block-index maps over the 64 points: the three row-banded inputs and the output sit at block (t, 0),
    the four small operands at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row r of point t's band of 4096 rows, as a row of the 262144. -/
def bandRow (t : Fin cfg1.N) (r : Fin 4096) : Fin 262144 :=
  ⟨4096 * t.val + r.val, by have ht : t.val < 64 := lt_of_lt_of_eq t.isLt points; have := r.isLt; omega⟩

/-- Point t's block of the radial basis values is rows 4096 t … of the array. -/
theorem radialBand_apply (A : S262144x6.Idx → EReal) (t : Fin cfg1.N) (r : Fin 4096) (q : Fin 6) :
    ((cfg1.win 0).blk t).view.read (Elt Ideal) A (ix2 r q) = A (ix2 (bandRow t r) q) := by
  obtain ⟨e0, e1, -⟩ := blockIndex t
  show A (((cfg1.win 0).blk t).view.emb (ix2 r q)) = A _
  refine congrArg A (funext fun a => Fin.ext ?_)
  match a with
  | ⟨0, _⟩ => show win1_0.index t (0 : Fin 2) * 4096 + 1 * r.val = 4096 * t.val + r.val; rw [e0]; omega
  | ⟨1, _⟩ => show win1_0.index t (1 : Fin 2) * 6 + 1 * q.val = q.val; rw [e1]; omega

/-- Point t's block of a 262144 x 256 array banded by rows (either looked-up node part, or the output) is rows 4096 t … -/
theorem nodeBand1_apply (A : S262144x256.Idx → EReal) (t : Fin cfg1.N) (r : Fin 4096) (h : Fin 256) :
    ((cfg1.win 1).blk t).view.read (Elt Ideal) A (ix2 r h) = A (ix2 (bandRow t r) h) := by
  obtain ⟨-, -, e0, e1, -⟩ := blockIndex t
  show A (((cfg1.win 1).blk t).view.emb (ix2 r h)) = A _
  refine congrArg A (funext fun a => Fin.ext ?_)
  match a with
  | ⟨0, _⟩ => show win1_1.index t (0 : Fin 2) * 4096 + 1 * r.val = 4096 * t.val + r.val; rw [e0]; omega
  | ⟨1, _⟩ => show win1_1.index t (1 : Fin 2) * 256 + 1 * h.val = h.val; rw [e1]; omega

theorem nodeBand2_apply (A : S262144x256.Idx → EReal) (t : Fin cfg1.N) (r : Fin 4096) (h : Fin 256) :
    ((cfg1.win 2).blk t).view.read (Elt Ideal) A (ix2 r h) = A (ix2 (bandRow t r) h) := by
  obtain ⟨-, -, -, -, e0, e1, -⟩ := blockIndex t
  show A (((cfg1.win 2).blk t).view.emb (ix2 r h)) = A _
  refine congrArg A (funext fun a => Fin.ext ?_)
  match a with
  | ⟨0, _⟩ => show win1_2.index t (0 : Fin 2) * 4096 + 1 * r.val = 4096 * t.val + r.val; rw [e0]; omega
  | ⟨1, _⟩ => show win1_2.index t (1 : Fin 2) * 256 + 1 * h.val = h.val; rw [e1]; omega

theorem outBand_apply (A : S262144x256.Idx → EReal) (t : Fin cfg1.N) (r : Fin 4096) (h : Fin 256) :
    ((cfg1.win 7).blk t).view.read (Elt Ideal) A (ix2 r h) = A (ix2 (bandRow t r) h) := by
  obtain ⟨-, -, -, -, -, -, -, -, -, -, -, -, -, -, e0, e1⟩ := blockIndex t
  show A (((cfg1.win 7).blk t).view.emb (ix2 r h)) = A _
  refine congrArg A (funext fun a => Fin.ext ?_)
  match a with
  | ⟨0, _⟩ => show win1_7.index t (0 : Fin 2) * 4096 + 1 * r.val = 4096 * t.val + r.val; rw [e0]; omega
  | ⟨1, _⟩ => show win1_7.index t (1 : Fin 2) * 256 + 1 * h.val = h.val; rw [e1]; omega

/-- The four small operands are handed whole at every point. -/
theorem radialWeights_apply (A : S6x256.Idx → EReal) (t : Fin cfg1.N) (q : Fin 6) (k : Fin 256) :
    ((cfg1.win 3).blk t).view.read (Elt Ideal) A (ix2 q k) = A (ix2 q k) := by
  obtain ⟨-, -, -, -, -, -, e0, e1, -⟩ := blockIndex t
  show A (((cfg1.win 3).blk t).view.emb (ix2 q k)) = A _
  refine congrArg A (funext fun a => Fin.ext ?_)
  match a with
  | ⟨0, _⟩ => show win1_3.index t (0 : Fin 2) * 6 + 1 * q.val = q.val; rw [e0]; omega
  | ⟨1, _⟩ => show win1_3.index t (1 : Fin 2) * 256 + 1 * k.val = k.val; rw [e1]; omega

theorem radialBias_apply (A : S1x256.Idx → EReal) (t : Fin cfg1.N) (z : Fin 1) (k : Fin 256) :
    ((cfg1.win 4).blk t).view.read (Elt Ideal) A (ix2 z k) = A (ix2 z k) := by
  obtain ⟨-, -, -, -, -, -, -, -, e0, e1, -⟩ := blockIndex t
  show A (((cfg1.win 4).blk t).view.emb (ix2 z k)) = A _
  refine congrArg A (funext fun a => Fin.ext ?_)
  match a with
  | ⟨0, _⟩ => show win1_4.index t (0 : Fin 2) * 1 + 1 * z.val = z.val; rw [e0]; omega
  | ⟨1, _⟩ => show win1_4.index t (1 : Fin 2) * 256 + 1 * k.val = k.val; rw [e1]; omega

theorem thirdBlock_apply (A : S256x256.Idx → EReal) (t : Fin cfg1.N) (k : Fin 256) (h : Fin 256) :
    ((cfg1.win 5).blk t).view.read (Elt Ideal) A (ix2 k h) = A (ix2 k h) := by
  obtain ⟨-, -, -, -, -, -, -, -, -, -, e0, e1, -⟩ := blockIndex t
  show A (((cfg1.win 5).blk t).view.emb (ix2 k h)) = A _
  refine congrArg A (funext fun a => Fin.ext ?_)
  match a with
  | ⟨0, _⟩ => show win1_5.index t (0 : Fin 2) * 256 + 1 * k.val = k.val; rw [e0]; omega
  | ⟨1, _⟩ => show win1_5.index t (1 : Fin 2) * 256 + 1 * h.val = h.val; rw [e1]; omega

theorem bias_apply (A : S1x256.Idx → EReal) (t : Fin cfg1.N) (z : Fin 1) (h : Fin 256) :
    ((cfg1.win 6).blk t).view.read (Elt Ideal) A (ix2 z h) = A (ix2 z h) := by
  obtain ⟨-, -, -, -, -, -, -, -, -, -, -, -, e0, e1, -⟩ := blockIndex t
  show A (((cfg1.win 6).blk t).view.emb (ix2 z h)) = A _
  refine congrArg A (funext fun a => Fin.ext ?_)
  match a with
  | ⟨0, _⟩ => show win1_6.index t (0 : Fin 2) * 1 + 1 * z.val = z.val; rw [e0]; omega
  | ⟨1, _⟩ => show win1_6.index t (1 : Fin 2) * 256 + 1 * h.val = h.val; rw [e1]; omega

/-! ## What a grid point writes back -/

/-- The loads and the one store are of whole staging buffers, so what is left in the output's buffer is the payload of
    the seven blocks. -/
theorem stored_eq (x0 : Vec Ideal S4096x6 .f32) (x1 x2 : Vec Ideal S4096x256 .f32) (x3 : Vec Ideal S6x256 .bf16)
    (x4 : Vec Ideal S1x256 .f32) (x5 : Vec Ideal S256x256 .bf16) (x6 : Vec Ideal S1x256 .f32) :
    out1_7 (F := Ideal) x0 x1 x2 x3 x4 x5 x6 = k1_pay1 (F := Ideal) x0 x3 x4 x1 x2 x5 x6 := by
  unfold out1_7
  rw [View.canon_unit_zero zeroOffsets]
  simp only [View.ld_unit_zero (S := S4096x6) zeroOffsets, View.ld_unit_zero (S := S6x256) zeroOffsets,
    View.ld_unit_zero (S := S1x256) zeroOffsets, View.ld_unit_zero (S := S4096x256) zeroOffsets,
    View.ld_unit_zero (S := S256x256) zeroOffsets]

/-- Each block a point is handed is its block of the named array. -/
theorem handed0 (h0 : V c main_arg2 = rb) (t : Fin cfg1.N) :
    iblk1 (F := Ideal) V c 0 t = ((cfg1.win 0).blk t).view.read (Elt Ideal) rb := by
  show ((cfg1.win 0).blk t).view.read (Elt Ideal) (V c main_arg2) = _
  rw [h0]
theorem handed1 (h1 : V c main_v23 = g1) (t : Fin cfg1.N) :
    iblk1 (F := Ideal) V c 1 t = ((cfg1.win 1).blk t).view.read (Elt Ideal) g1 := by
  show ((cfg1.win 1).blk t).view.read (Elt Ideal) (V c main_v23) = _
  rw [h1]
theorem handed2 (h2 : V c main_v24 = g2) (t : Fin cfg1.N) :
    iblk1 (F := Ideal) V c 2 t = ((cfg1.win 2).blk t).view.read (Elt Ideal) g2 := by
  show ((cfg1.win 2).blk t).view.read (Elt Ideal) (V c main_v24) = _
  rw [h2]
theorem handed3 (h3 : V c main_v19 = wrt) (t : Fin cfg1.N) :
    iblk1 (F := Ideal) V c 3 t = ((cfg1.win 3).blk t).view.read (Elt Ideal) wrt := by
  show ((cfg1.win 3).blk t).view.read (Elt Ideal) (V c main_v19) = _
  rw [h3]
theorem handed4 (h4 : V c main_v20 = br) (t : Fin cfg1.N) :
    iblk1 (F := Ideal) V c 4 t = ((cfg1.win 4).blk t).view.read (Elt Ideal) br := by
  show ((cfg1.win 4).blk t).view.read (Elt Ideal) (V c main_v20) = _
  rw [h4]
theorem handed5 (h5 : V c main_v17 = w3) (t : Fin cfg1.N) :
    iblk1 (F := Ideal) V c 5 t = ((cfg1.win 5).blk t).view.read (Elt Ideal) w3 := by
  show ((cfg1.win 5).blk t).view.read (Elt Ideal) (V c main_v17) = _
  rw [h5]
theorem handed6 (h6 : V c main_v21 = bl) (t : Fin cfg1.N) :
    iblk1 (F := Ideal) V c 6 t = ((cfg1.win 6).blk t).view.read (Elt Ideal) bl := by
  show ((cfg1.win 6).blk t).view.read (Elt Ideal) (V c main_v21) = _
  rw [h6]

/-- What point t writes back is its band of rows of the edge stage's function of the seven arrays. -/
theorem flushed_eq (h0 : V c main_arg2 = rb) (h1 : V c main_v23 = g1) (h2 : V c main_v24 = g2) (h3 : V c main_v19 = wrt)
    (h4 : V c main_v20 = br) (h5 : V c main_v17 = w3) (h6 : V c main_v21 = bl) (t : Fin cfg1.N) :
    (dat1 (F := Ideal) V c).flushed 7 t
      = ((cfg1.win 7).blk t).view.read (Elt Ideal) (edgeOut rb g1 g2 wrt br w3 bl) := by
  show (cfg1.win 7).cut (grid1.coords t) ((dat1 V c).after 7 t) = _
  rw [after1_7, stored_eq, handed0 V c rb h0 t, handed1 V c g1 h1 t, handed2 V c g2 h2 t, handed3 V c wrt h3 t,
    handed4 V c br h4 t, handed5 V c w3 h5 t, handed6 V c bl h6 t]
  funext j
  obtain ⟨r, h, rfl⟩ : ∃ (r : Fin 4096) (h : Fin 256), j = ix2 r h := ⟨j 0, j 1, eq_ix2 j⟩
  show k1_pay1 (F := Ideal) _ _ _ _ _ _ _ (ix2 r h) = _
  rw [payload_apply, outBand_apply, edgeOut_ix2]
  refine congrArg gate ?_
  refine congrArg₂ (· + ·)
    (congrArg₂ (· + ·) (congrArg₂ (· + ·) (nodeBand1_apply g1 t r h) (nodeBand2_apply g2 t r h)) ?_)
    (bias_apply bl t ⟨0, Nat.one_pos⟩ h)
  refine Finset.sum_congr rfl fun k _ => congrArg₂ (· * ·) (congrArg gate ?_) (thirdBlock_apply w3 t k h)
  exact congrArg₂ (· + ·)
    (Finset.sum_congr rfl fun q _ => congrArg₂ (· * ·) (radialBand_apply rb t r q) (radialWeights_apply wrt t q k))
    (radialBias_apply br t ⟨0, Nat.one_pos⟩ k)

/-! ## The 64 bands tile the rows -/

/-- An index of the output array is in point t's block iff each coordinate is in the block's range on its axis. -/
theorem mem_band (t : Fin cfg1.N) (i : S262144x256.Idx) :
    i ∈ ((cfg1.win 7).blk t).view.set ↔ ∀ a : Fin 2, win1_7.index t a * S4096x256.size a ≤ (i a).val
      ∧ (i a).val < win1_7.index t a * S4096x256.size a + S4096x256.size a := by
  show i ∈ ((View.whole main_v25).slice (win1_7.rect t)).set ↔ _
  rw [View.set_slice_whole, Rect.mem_set_unit]
  exact Iff.rfl

/-- The output array after the stage's 64 points. -/
theorem out7 (h0 : V c main_arg2 = rb) (h1 : V c main_v23 = g1) (h2 : V c main_v24 = g2) (h3 : V c main_v19 = wrt)
    (h4 : V c main_v20 = br) (h5 : V c main_v17 = w3) (h6 : V c main_v21 = bl) :
    (dat1 (F := Ideal) V c).arrAt 7 cfg1.N = edgeOut rb g1 g2 wrt br w3 bl :=
  (dat1 (F := Ideal) V c).arrAt_eq_of_cover 7 (edgeOut rb g1 g2 wrt br w3 bl)
    (fun t _ => flushed_eq V c rb g1 g2 wrt br w3 bl h0 h1 h2 h3 h4 h5 h6 t)
    (fun i => by
      have hi0 : (i 0).val < 262144 := (i 0).isLt
      have hi1 : (i 1).val < 256 := (i 1).isLt
      have hp : (i 0).val / 4096 < cfg1.N := by rw [points]; omega
      obtain ⟨-, -, -, -, -, -, -, -, -, -, -, -, -, -, e0, e1⟩ := blockIndex ⟨(i 0).val / 4096, hp⟩
      refine ⟨⟨(i 0).val / 4096, hp⟩, flush1_7 _, ?_⟩
      rw [mem_band]
      intro a
      match a with
      | ⟨0, _⟩ =>
        show win1_7.index ⟨(i 0).val / 4096, hp⟩ (0 : Fin 2) * 4096 ≤ (i 0).val
          ∧ (i 0).val < win1_7.index ⟨(i 0).val / 4096, hp⟩ (0 : Fin 2) * 4096 + 4096
        rw [e0]; show (i 0).val / 4096 * 4096 ≤ (i 0).val ∧ (i 0).val < (i 0).val / 4096 * 4096 + 4096; omega
      | ⟨1, _⟩ =>
        show win1_7.index ⟨(i 0).val / 4096, hp⟩ (1 : Fin 2) * 256 ≤ (i 1).val
          ∧ (i 1).val < win1_7.index ⟨(i 0).val / 4096, hp⟩ (1 : Fin 2) * 256 + 256
        rw [e1]; omega)

end Cert.KernelIdeal.EdgeStage

end
-- ==== Proof.HostBefore.lean ====
/-
  What the node stage is handed. Before the stage the host lays the vocabulary words out as a column, pads the 95-row
  embedding table with 33 zero rows to 128, and cuts four blocks out of the 256 x 896 weight matrix — columns 0 … 255,
  256 … 319, 320 … 575, 576 … 639 — each transposed so that the contracted axis comes first; a change of float format
  does nothing to an extended real. The conditioning rows are handed over as they are.
-/
import proofs.«427969_j10883447128784_4_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.NodeHanded

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- No operation of a stretch writes the buffer: every operation's result buffer is another reference. -/
macro "no_write" ops:ident : tactic =>
  `(tactic| (refine List.forall_iff_forall_mem.mp ?_
             simp only [$ops:ident, List.Forall, StableHlo.nullary_writes, StableHlo.unary_writes, StableHlo.binary_writes,
               StableHlo.reshape_writes, Finset.mem_singleton]
             repeat' apply And.intro
             all_goals exact StableHlo.devRef_ne_of_ne (by decide)))

/-! ## One layout operation read at one entry -/

/-- A vector laid out as a one-column matrix: entry (n, 0) is entry n. -/
theorem col_read {α : Type} (x : S16384.Idx → α) (h : S16384.ShapeCasts S16384x1) (i : S16384x1.Idx) :
    shapeCast S16384x1 x h i = x (ix1 ⟨(i 0).val, idx2_lt0 i⟩) := by
  refine shapeCast_apply (s := S16384) (t := S16384x1) x h i _ ?_
  rw [Shape.rowMajor_val_two, Shape.rowMajor_val_one]
  have h1 : (i 1).val < 1 := idx2_lt1 i
  show (i 0).val = (i 0).val * 1 + (i 1).val
  omega

/-- Thirty-three rows of one value appended below a 95-row matrix: a row below 95 is the matrix's, a later
    one holds the value. -/
theorem pad_read {α : Type} (x : S95x256.Idx → α) (v : S_.Idx → α)
    (h : S95x256.Pads ![0, 0] ![33, 0] ![0, 0] S128x256) (hu : 0 < S_.numel) (i : S128x256.Idx) :
    pad S128x256 ![0, 0] ![33, 0] ![0, 0] x v h hu i =
      if hi : (i 0).val < 95 then x (ix2 ⟨(i 0).val, hi⟩ ⟨(i 1).val, idx2_lt1 i⟩) else v ix0 := by
  by_cases hi : (i 0).val < 95
  · rw [dif_pos hi]
    refine pad_apply_of_inside (s := S95x256) (t := S128x256) _ _ _ x v h hu i _ ?_
    intro a
    match a with
    | ⟨0, _⟩ => show (i 0).val = 0 + (i 0).val * (0 + 1); omega
    | ⟨1, _⟩ => show (i 1).val = 0 + (i 1).val * (0 + 1); omega
  · rw [dif_neg hi]
    refine (pad_apply_of_not_inside (s := S95x256) (t := S128x256) _ _ _ x v h hu i 0 ?_).trans (congrArg v (eq_ix0 _))
    show ¬(0 ≤ (i 0).val ∧ ((i 0).val - 0) % (0 + 1) = 0 ∧ ((i 0).val - 0) / (0 + 1) < 95)
    omega

/-- The table padded with the converted integer zero, in the narrower float format: over the extended reals the
    format change is the identity and the converted zero is zero. -/
theorem table_read (x : FVec Ideal S95x256 .f32)
    (h : S95x256.Pads ![0, 0] ![33, 0] ![0, 0] S128x256) (hu : 0 < S_.numel) (hb : FTy.bf16.bits < FTy.f32.bits)
    (i : S128x256.Idx) :
    (truncf .bf16 (pad S128x256 ![0, 0] ![33, 0] ![0, 0] x
        (sitofp .f32 (constantI S_ 32 0#32) : FVec Ideal S_ .f32) h hu : FVec Ideal S128x256 .f32) hb) i =
      if hi : (i 0).val < 95 then x (ix2 ⟨(i 0).val, hi⟩ ⟨(i 1).val, idx2_lt1 i⟩) else (0 : EReal) := by
  show pad S128x256 ![0, 0] ![33, 0] ![0, 0] x (sitofp .f32 (constantI S_ 32 0#32) : FVec Ideal S_ .f32) h hu i = _
  rw [pad_read]
  by_cases hi : (i 0).val < 95
  · rw [dif_pos hi, dif_pos hi]
  · rw [dif_neg hi, dif_neg hi]
    exact sitofp_zero

/-- A block of columns cut out of the weight matrix from column `off` on, transposed, in the narrower float
    format: entry (k, h) of the result is entry (h, off + k) of the matrix. -/
theorem block_read {N : Nat} (off : Nat) (x : FVec Ideal S256x896 .f32)
    (hs : S256x896.Slices ![0, off] ⟨2, ![256, N]⟩)
    (ht : (⟨2, ![256, N]⟩ : Shape).Transposes [1, 0] ⟨2, ![N, 256]⟩) (hb : FTy.bf16.bits < FTy.f32.bits)
    (i : (⟨2, ![N, 256]⟩ : Shape).Idx) (k : S256x896.Idx)
    (h0 : (k 0).val = (i 1).val) (h1 : (k 1).val = off + (i 0).val) :
    (truncf .bf16 (transpose ⟨2, ![N, 256]⟩ [1, 0] (extractStridedSlice ⟨2, ![256, N]⟩ ![0, off] x hs) ht :
        FVec Ideal ⟨2, ![N, 256]⟩ .f32) hb) i = x k := by
  show transpose ⟨2, ![N, 256]⟩ [1, 0] (extractStridedSlice ⟨2, ![256, N]⟩ ![0, off] x hs) ht i = x k
  refine (transpose_apply (s := ⟨2, ![256, N]⟩) (t := ⟨2, ![N, 256]⟩) [1, 0] _ ht i (ix2 (i 1) (i 0)) ?_).trans ?_
  · intro b
    match b with
    | ⟨0, _⟩ => rfl
    | ⟨1, _⟩ => rfl
  · refine extractStridedSlice_apply (s := S256x896) (t := ⟨2, ![256, N]⟩) _ x hs _ k ?_
    intro a
    match a with
    | ⟨0, _⟩ => show (k 0).val = 0 + (i 1).val; omega
    | ⟨1, _⟩ => show (k 1).val = off + (i 0).val; exact h1

/-! ## The seven arrays -/

/-- The word column: entry (n, 0) is word n. -/
theorem words : V3 m ρ c main_v0 = (fun i : S16384x1.Idx =>
    (m ((c : Thread nD τ).loc main_arg0) : S16384.Idx → BitVec 32) (ix1 ⟨(i 0).val, idx2_lt0 i⟩)) := by
  -- the column is laid out in the first stretch and neither later stretch writes it
  have e : W3 m ρ c (Proc.devRef .tc main_v0) = W1 m ρ c (Proc.devRef .tc main_v0) :=
    (StableHlo.after_of_forall_not_mem (b := Proc.devRef .tc main_v0) _ _ (by no_write hostOps0_2)).trans
      (StableHlo.after_of_forall_not_mem (b := Proc.devRef .tc main_v0) _ _ (by no_write hostOps0_1))
  refine e.trans ?_
  show StableHlo.after hostOps0 _ (Proc.devRef .tc main_v0) = _
  after_results
  funext i
  exact col_read _ _ i

/-- The conditioning rows, untouched. -/
theorem cond : V3 m ρ c main_arg1 = m ((c : Thread nD τ).loc main_arg1) :=
  -- an argument no host operation writes: each stretch leaves it as it found it
  calc W3 m ρ c (Proc.devRef .tc main_arg1)
    _ = W2 m ρ c (Proc.devRef .tc main_arg1) :=
          StableHlo.after_of_forall_not_mem (b := Proc.devRef .tc main_arg1) _ _ (by no_write hostOps0_2)
    _ = W1 m ρ c (Proc.devRef .tc main_arg1) :=
          StableHlo.after_of_forall_not_mem (b := Proc.devRef .tc main_arg1) _ _ (by no_write hostOps0_1)
    _ = W0 m ρ c (Proc.devRef .tc main_arg1) :=
          StableHlo.after_of_forall_not_mem (b := Proc.devRef .tc main_arg1) _ _ (by no_write hostOps0)
    _ = m ((c : Thread nD τ).loc main_arg1) := rfl

/-- The padded table: rows below 95 are the embedding table's, the rest zero. -/
theorem table : V3 m ρ c main_v2 = (fun i : S128x256.Idx =>
    if h : (i 0).val < 95 then (m ((c : Thread nD τ).loc main_arg5) : S95x256.Idx → EReal) (ix2 ⟨(i 0).val, h⟩ ⟨(i 1).val, idx2_lt1 i⟩)
    else (0 : EReal)) := by
  show StableHlo.after hostOps0_2 _ (Proc.devRef .tc main_v2) = _
  after_results
  funext i
  -- the typed references' transports are identities: what is left is the format change of the padded table
  exact table_read (m ((c : Thread nD τ).loc main_arg5)) Facts₀.pads_S95x256_S128x256_0330_000 Facts₀.h_S_
    Facts₀.bitsLt_bf16_f32 i

/-- The first endpoint's embedding block: entry (k, h) is weight (h, k). -/
theorem blockA : V3 m ρ c main_v5 = (fun i : S256x256.Idx =>
    (m ((c : Thread nD τ).loc main_arg8) : S256x896.Idx → EReal) (ix2 ⟨(i 1).val, idx2_lt1 i⟩ ⟨(i 0).val, by have := idx2_lt0 i; omega⟩)) := by
  show StableHlo.after hostOps0_2 _ (Proc.devRef .tc main_v5) = _
  after_results
  funext i
  exact block_read 0 _ _ _ _ i _ rfl (Nat.zero_add _).symm

/-- The first endpoint's conditioning block: entry (q, h) is weight (h, 256 + q). -/
theorem blockAc : V3 m ρ c main_v8 = (fun i : S64x256.Idx =>
    (m ((c : Thread nD τ).loc main_arg8) : S256x896.Idx → EReal) (ix2 ⟨(i 1).val, idx2_lt1 i⟩ ⟨256 + (i 0).val, by have := idx2_lt0 i; omega⟩)) := by
  show StableHlo.after hostOps0_2 _ (Proc.devRef .tc main_v8) = _
  after_results
  funext i
  exact block_read 256 _ _ _ _ i _ rfl rfl

/-- The second endpoint's embedding block: entry (k, h) is weight (h, 320 + k). -/
theorem blockB : V3 m ρ c main_v11 = (fun i : S256x256.Idx =>
    (m ((c : Thread nD τ).loc main_arg8) : S256x896.Idx → EReal) (ix2 ⟨(i 1).val, idx2_lt1 i⟩ ⟨320 + (i 0).val, by have := idx2_lt0 i; omega⟩)) := by
  show StableHlo.after hostOps0_2 _ (Proc.devRef .tc main_v11) = _
  after_results
  funext i
  exact block_read 320 _ _ _ _ i _ rfl rfl

/-- The second endpoint's conditioning block: entry (q, h) is weight (h, 576 + q). -/
theorem blockBc : V3 m ρ c main_v14 = (fun i : S64x256.Idx =>
    (m ((c : Thread nD τ).loc main_arg8) : S256x896.Idx → EReal) (ix2 ⟨(i 1).val, idx2_lt1 i⟩ ⟨576 + (i 0).val, by have := idx2_lt0 i; omega⟩)) := by
  show StableHlo.after hostOps0_2 _ (Proc.devRef .tc main_v14) = _
  after_results
  funext i
  exact block_read 576 _ _ _ _ i _ rfl rfl

end Cert.KernelIdeal.NodeHanded

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.HostBetween.lean ====
/-
  What the edge stage is handed. Between the two stages the host looks up, for every edge, the row of each node-stage
  output that the edge's endpoint word names (negative words wrapped, the lookup guarded by an in-range test that selects
  a not-a-number fill when it fails; with 0 ≤ word < 16384 the wrap does nothing, the test passes and the clamp keeps the
  word). The radial weights transposed, the radial bias and the bias as one row each, and the third weight block — columns
  640 … 895 transposed — were prepared before the node stage and are not touched by it or by the lookups; the radial basis
  values are handed over as they are.
-/
import proofs.«427969_j10883447128784_4_alg».proof.Proof.Gen.KernelIdeal.Frame
import proofs.«427969_j10883447128784_4_alg».proof.Proof.Spec
import proofs.«427969_j10883447128784_4_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.EdgeHanded

open Cert.KernelIdeal Cert.KernelIdeal.Gen Cert.Factored Cert.Lib.RowGather
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## A row lookup guarded by a range test, as one function of the table and the words

Each of the two lookups between the stages is the same function of (table, words): wrap a negative word by the table's
height, lay the words out as a column, test each against 0 and 16383, gather the table's rows at the column and keep a
gathered row where the test passed (a not-a-number fill elsewhere). For words already inside [0, 16384) the wrap is the
identity, the test passes, and the gather's own clamp keeps the word: the function reads row w(e) of the table at (e, ·). -/

section Take

variable (hb0 : S_.BroadcastsInDim S262144 (![] : Fin 0 → Fin S262144.rank))
  (hcol : S262144.BroadcastsInDim S262144x1 (![0] : Fin 1 → Fin S262144x1.rank))
  (hb1 : S_.BroadcastsInDim S262144x1 (![] : Fin 0 → Fin S262144x1.rank))
  (h11 : S1.BroadcastsInDim S1x1 (![1] : Fin 1 → Fin S1x1.rank))
  (h1c : S1x1.BroadcastsInDim S262144x1 (![0, 1] : Fin 2 → Fin S262144x1.rank))
  (hred : S262144x1.ReducesTo [1] S262144)
  (hrow : S262144.BroadcastsInDim S262144x256 (![0] : Fin 1 → Fin S262144x256.rank))
  (hb2 : S_.BroadcastsInDim S262144x256 (![] : Fin 0 → Fin S262144x256.rank))
  (hS : 0 < S_.numel)
  (wf : GatherDims.WF S16384x256 S262144x1 S262144x256 [1] [0] [] [0] [] 1 ![1, 256])

/-- The words with the negative ones moved up by the table's height. -/
def wrapped (w : IVec S262144 32) : IVec S262144 32 :=
  select (cmpi .slt w (broadcastInDim S262144 ![] hb0 (constantI S_ 32 0#32)))
    (addi w (broadcastInDim S262144 ![] hb0 (constantI S_ 32 16384#32))) w

/-- The wrapped words as a one-wide column. -/
def column (w : IVec S262144 32) : IVec S262144x1 32 := broadcastInDim S262144x1 ![0] hcol (wrapped hb0 w)

/-- Per word: is the wrapped word inside [0, 16383]? (The conjunction over the column's one entry.) -/
def inRange (w : IVec S262144 32) : IVec S262144 1 :=
  Host.reduce IntOp.andi
    (andi (cmpi .sge (column hb0 hcol w) (broadcastInDim S262144x1 ![] hb1 (constantI S_ 32 0#32)))
      (cmpi .sle (column hb0 hcol w)
        (broadcastInDim S262144x1 ![0, 1] h1c (broadcastInDim S1x1 ![1] h11 (constantI S1 32 16383#32)))))
    (constantI S_ 1 1#1) hred hS

/-- The guarded lookup. -/
def take (A : S16384x256.Idx → EReal) (w : IVec S262144 32) : S262144x256.Idx → EReal :=
  select (broadcastInDim S262144x256 ![0] hrow (inRange hb0 hcol hb1 h11 h1c hred hS w))
    (Host.gather (rowDims 16384 256 262144 wf) A (column hb0 hcol w))
    (broadcastInDim S262144x256 ![] hb2 (constant (F := Ideal) S_ .f32 0x7FC00000#32))

/-- A word below 2^31 is not negative: the signed test against zero fails. -/
theorem slt_zero_of_small (a : BitVec 32) (ha : a.toNat < 2 ^ 31) : IntOp.cmpi .slt a 0#32 = 0#1 :=
  eq_zero_of_ne_one fun h => Nat.not_lt_zero a.toNat ((StableHlo.Predicate.slt_iff_toNat ha (by decide)).mp h)

/-- A word already inside the table is not moved. -/
theorem wrapped_apply (w : IVec S262144 32) (e : Fin 262144) (hw : (w (ix1 e)).toNat < 16384) :
    wrapped hb0 w (ix1 e) = w (ix1 e) := by
  unfold wrapped
  rw [select_apply]
  have hc : cmpi .slt w (broadcastInDim S262144 ![] hb0 (constantI S_ 32 0#32)) (ix1 e) = 0#1 :=
    slt_zero_of_small (w (ix1 e)) (by omega)
  rw [hc, select_zero]

/-- The column at (e, 0) is the wrapped word e. -/
theorem column_apply (w : IVec S262144 32) (e : Fin 262144) (z : Fin 1) :
    column hb0 hcol w (ix2 e z) = wrapped hb0 w (ix1 e) := by
  unfold column
  exact broadcastInDim_apply _ hcol _ (ix2 e z) (ix1 e) (fun a => by match a with | ⟨0, _⟩ => rfl)

/-- A conjunction, folded from 1 over words that are all 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- With every word inside the table the range test passes everywhere. -/
theorem inRange_apply (w : IVec S262144 32) (hw : ∀ e : Fin 262144, (w (ix1 e)).toNat < 16384) (e : Fin 262144) :
    inRange hb0 hcol hb1 h11 h1c hred hS w (ix1 e) = 1#1 := by
  unfold inRange
  rw [Host.reduce_eq_foldl]
  refine foldl_andi_one _ (fun i => ?_) _
  obtain ⟨p, z, rfl⟩ : ∃ (p : Fin 262144) (z : Fin 1), i = ix2 p z := ⟨i 0, i 1, eq_ix2 i⟩
  show IntOp.andi (IntOp.cmpi .sge (column hb0 hcol w (ix2 p z)) 0#32) (IntOp.cmpi .sle (column hb0 hcol w (ix2 p z)) 16383#32) = 1#1
  rw [column_apply, wrapped_apply hb0 w p (hw p)]
  have h := hw p
  rw [IntOp.andi_eq_one]
  exact ⟨(StableHlo.Predicate.sge_iff_toNat (by omega) (by decide)).mpr (Nat.zero_le _),
    (StableHlo.Predicate.sle_iff_toNat (by omega) (by decide)).mpr (by show _ ≤ 16383; omega)⟩

/-- The guarded lookup at (e, h), every word inside the table: row w(e) of the table, column h. -/
theorem take_apply (A : S16384x256.Idx → EReal) (w : IVec S262144 32)
    (hw : ∀ e : Fin 262144, (w (ix1 e)).toNat < 16384) (e : Fin 262144) (h : Fin 256) :
    take hb0 hcol hb1 h11 h1c hred hrow hb2 hS wf A w (ix2 e h) = A (ix2 (rowOf 16384 (by decide) (w (ix1 e))) h) := by
  unfold take
  rw [select_apply]
  have hc : broadcastInDim S262144x256 ![0] hrow (inRange hb0 hcol hb1 h11 h1c hred hS w) (ix2 e h) = 1#1 :=
    (broadcastInDim_apply _ hrow _ (ix2 e h) (ix1 e) (fun a => by match a with | ⟨0, _⟩ => rfl)).trans
      (inRange_apply hb0 hcol hb1 h11 h1c hred hS w hw e)
  rw [hc, select_one, rowGather_apply (by decide) wf A _ e h]
  have hcw : column hb0 hcol w (ix2 e ⟨0, Nat.one_pos⟩) = w (ix1 e) :=
    (column_apply hb0 hcol w e _).trans (wrapped_apply hb0 w e (hw e))
  refine congrArg A (congrArg (fun r => ix2 r h) (Fin.ext ?_))
  show min (column hb0 hcol w (ix2 e ⟨0, Nat.one_pos⟩)).toInt.toNat (16384 - 1) = min (w (ix1 e)).toInt.toNat (16384 - 1)
  rw [hcw]

end Take

/-- Every index of a two-axis array is a pair of coordinates. -/
theorem exists_ix2 {n0 n1 : Nat} (j : (⟨2, ![n0, n1]⟩ : Shape).Idx) : ∃ (a : Fin n0) (b : Fin n1), j = ix2 a b :=
  ⟨j 0, j 1, eq_ix2 j⟩

/-! ## Walking a buffer back over the stretches that do not write it -/

/-- Decides that a literal buffer is none of the result buffers of a literal stretch of host operations. -/
local macro "unwritten" "[" ops:ident "]" : tactic =>
  `(tactic| (refine List.forall_iff_forall_mem.mp ?_
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer that none of the two stretches before the preparation stretch writes holds, after them, what it was launched with. -/
theorem launched2 (b : Ref sig .tc)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W2 m ρ c (Proc.devRef .tc b) = m ((c : Thread nD τ).loc b) :=
  calc W2 m ρ c (Proc.devRef .tc b)
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- Likewise through the preparation stretch: at the node stage's entry. -/
theorem launched3 (b : Ref sig .tc)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h2).trans (launched2 m ρ c b h1 h0)

/-- A buffer that neither lookup writes holds at the edge stage's entry what the node stage left. -/
theorem carried (b : Ref sig .tc)
    (h5 : ∀ op ∈ (hostOps1_1 : List (HloOp τ sig (Elt Ideal))), Proc.devRef .tc b ∉ op.writes)
    (h4 : ∀ op ∈ (hostOps1 : List (HloOp τ sig (Elt Ideal))), Proc.devRef .tc b ∉ op.writes) :
    V6 m ρ c b = W4 m ρ c (Proc.devRef .tc b) :=
  (StableHlo.after_of_forall_not_mem (b := Proc.devRef .tc b) _ _ h5).trans
    (StableHlo.after_of_forall_not_mem (b := Proc.devRef .tc b) _ _ h4)

/-! ## The two lookups as the guarded lookup -/

/-- The first lookup's 23 operations leave in their result buffer the guarded lookup of the first table at the first endpoint words, whatever the contents they start from. -/
theorem lookup1 (V : Valuation τ sig (Elt Ideal)) :
    StableHlo.after hostOps1 V (Proc.devRef .tc main_v23)
      = take Facts₀.bcast_S_S262144 Facts₀.bcast_S262144_S262144x1_0 Facts₀.bcast_S_S262144x1 Facts₀.bcast_S1_S1x1_1
          Facts₀.bcast_S1x1_S262144x1_0_1 Facts₀.reducesTo_S262144x1_S262144_d1 Facts₀.bcast_S262144_S262144x256_0
          Facts₀.bcast_S_S262144x256 Facts₀.h_S_ Facts₀.gather_S16384x256_S262144x1_S262144x256_1_0_n_n_0_1_1256_wf
          (V (Proc.devRef .tc main_v22_0)) (V (Proc.devRef .tc main_arg3)) := by
  after_results_simp
  simp only [StableHlo.TRef.ofBuf, StableHlo.TRef.toBuf, cast_eq]
  rfl

/-- The second lookup's 23 operations, likewise, over the second table and the second endpoint words. -/
theorem lookup2 (V : Valuation τ sig (Elt Ideal)) :
    StableHlo.after hostOps1_1 V (Proc.devRef .tc main_v24)
      = take Facts₀.bcast_S_S262144 Facts₀.bcast_S262144_S262144x1_0 Facts₀.bcast_S_S262144x1 Facts₀.bcast_S1_S1x1_1
          Facts₀.bcast_S1x1_S262144x1_0_1 Facts₀.reducesTo_S262144x1_S262144_d1 Facts₀.bcast_S262144_S262144x256_0
          Facts₀.bcast_S_S262144x256 Facts₀.h_S_ Facts₀.gather_S16384x256_S262144x1_S262144x256_1_0_n_n_0_1_1256_wf
          (V (Proc.devRef .tc main_v22_1)) (V (Proc.devRef .tc main_arg4)) := by
  after_results_simp
  simp only [StableHlo.TRef.ofBuf, StableHlo.TRef.toBuf, cast_eq]
  rfl

/-! ## The buffers prepared before the node stage -/

/-- What the preparation stretch leaves in the four buffers the edge stage reads, over any starting contents. -/
theorem prep17 (V : Valuation τ sig (Elt Ideal)) :
    StableHlo.after hostOps0_2 V (Proc.devRef .tc main_v17)
      = truncf (F := Ideal) .bf16 (transpose S256x256 [1, 0]
          (extractStridedSlice S256x256 ![0, 640] (V (Proc.devRef .tc main_arg8) : S256x896.Idx → EReal)
            Facts₀.slices_S256x896_S256x256_0_640)
          Facts₀.transposes_S256x256_S256x256_1_0) Facts₀.bitsLt_bf16_f32 := by
  after_results_simp

theorem prep19 (V : Valuation τ sig (Elt Ideal)) :
    StableHlo.after hostOps0_2 V (Proc.devRef .tc main_v19)
      = truncf (F := Ideal) .bf16 (transpose S6x256 [1, 0] (V (Proc.devRef .tc main_arg6) : S256x6.Idx → EReal)
          Facts₀.transposes_S256x6_S6x256_1_0) Facts₀.bitsLt_bf16_f32 := by
  after_results_simp

theorem prep20 (V : Valuation τ sig (Elt Ideal)) :
    StableHlo.after hostOps0_2 V (Proc.devRef .tc main_v20)
      = shapeCast S1x256 (V (Proc.devRef .tc main_arg7)) Facts₀.shapeCasts_S256_S1x256 := by
  after_results_simp
  rfl

theorem prep21 (V : Valuation τ sig (Elt Ideal)) :
    StableHlo.after hostOps0_2 V (Proc.devRef .tc main_v21)
      = shapeCast S1x256 (V (Proc.devRef .tc main_arg9)) Facts₀.shapeCasts_S256_S1x256 := by
  after_results_simp
  rfl

/-- A prepared buffer, which neither the node stage nor a lookup touches, holds at the edge stage's entry what the preparation stretch left. -/
theorem prepared (b : Ref sig .tc) (hb : ∀ w, Pipeline.arrRef spec0 w ≠ b)
    (h5 : ∀ op ∈ (hostOps1_1 : List (HloOp τ sig (Elt Ideal))), Proc.devRef .tc b ∉ op.writes)
    (h4 : ∀ op ∈ (hostOps1 : List (HloOp τ sig (Elt Ideal))), Proc.devRef .tc b ∉ op.writes) :
    V6 m ρ c b = StableHlo.after hostOps0_2 (W2 m ρ c) (Proc.devRef .tc b) :=
  (carried m ρ c b h5 h4).trans (W4_of_ne m ρ c b hb)

/-! ## What the edge stage is handed -/

/-- The radial basis values, untouched. -/
theorem radialIn : V6 m ρ c main_arg2 = m ((c : Thread nD τ).loc main_arg2) :=
  (carried m ρ c main_arg2 (by unwritten [hostOps1_1]) (by unwritten [hostOps1])).trans
    ((W4_of_ne m ρ c main_arg2 (by decide)).trans
      (launched3 m ρ c main_arg2 (by unwritten [hostOps0_2]) (by unwritten [hostOps0_1]) (by unwritten [hostOps0])))

/-- The first looked-up node part: row (e, ·) is the row of the node stage's first output that edge e's first endpoint names. -/
theorem first (A : S16384x256.Idx → EReal) (hA : V4 m ρ c main_v22_0 = A)
    (hi : ∀ e : Fin 262144, ((m ((c : Thread nD τ).loc main_arg3) : S262144.Idx → BitVec 32) (ix1 e)).toNat < 16384) :
    V6 m ρ c main_v23 = (fun i : S262144x256.Idx =>
      A (ix2 (rowOf 16384 (by decide) ((m ((c : Thread nD τ).loc main_arg3) : S262144.Idx → BitVec 32) (ix1 ⟨(i 0).val, idx2_lt0 i⟩)))
        ⟨(i 1).val, idx2_lt1 i⟩)) := by
  have h5 : V6 m ρ c main_v23 = W5 m ρ c (Proc.devRef .tc main_v23) :=
    StableHlo.after_of_forall_not_mem (b := Proc.devRef .tc main_v23) _ _ (by unwritten [hostOps1_1])
  have hw : W4 m ρ c (Proc.devRef .tc main_arg3) = m ((c : Thread nD τ).loc main_arg3) :=
    (W4_of_ne m ρ c main_arg3 (by decide)).trans
      (launched3 m ρ c main_arg3 (by unwritten [hostOps0_2]) (by unwritten [hostOps0_1]) (by unwritten [hostOps0]))
  have hA' : W4 m ρ c (Proc.devRef .tc main_v22_0) = A := hA
  funext i
  obtain ⟨e, h, rfl⟩ := exists_ix2 i
  refine (congrFun (h5.trans (lookup1 (W4 m ρ c))) (ix2 e h)).trans ?_
  rw [hA', hw]
  exact take_apply _ _ _ _ _ _ _ _ _ _ A _ hi e h

/-- The second looked-up node part, by the second endpoint. -/
theorem second (B : S16384x256.Idx → EReal) (hB : V4 m ρ c main_v22_1 = B)
    (hj : ∀ e : Fin 262144, ((m ((c : Thread nD τ).loc main_arg4) : S262144.Idx → BitVec 32) (ix1 e)).toNat < 16384) :
    V6 m ρ c main_v24 = (fun i : S262144x256.Idx =>
      B (ix2 (rowOf 16384 (by decide) ((m ((c : Thread nD τ).loc main_arg4) : S262144.Idx → BitVec 32) (ix1 ⟨(i 0).val, idx2_lt0 i⟩)))
        ⟨(i 1).val, idx2_lt1 i⟩)) := by
  have hw : W5 m ρ c (Proc.devRef .tc main_arg4) = m ((c : Thread nD τ).loc main_arg4) :=
    (StableHlo.after_of_forall_not_mem (b := Proc.devRef .tc main_arg4) _ _ (by unwritten [hostOps1])).trans
      ((W4_of_ne m ρ c main_arg4 (by decide)).trans
        (launched3 m ρ c main_arg4 (by unwritten [hostOps0_2]) (by unwritten [hostOps0_1]) (by unwritten [hostOps0])))
  have hB' : W5 m ρ c (Proc.devRef .tc main_v22_1) = B :=
    (StableHlo.after_of_forall_not_mem (b := Proc.devRef .tc main_v22_1) _ _ (by unwritten [hostOps1])).trans hB
  funext i
  obtain ⟨e, h, rfl⟩ := exists_ix2 i
  refine (congrFun (lookup2 (W5 m ρ c)) (ix2 e h)).trans ?_
  rw [hB', hw]
  exact take_apply _ _ _ _ _ _ _ _ _ _ B _ hj e h

/-- The radial weights, contraction first: entry (r, k) is radial weight (k, r). -/
theorem radialW : V6 m ρ c main_v19 = (fun i : S6x256.Idx =>
    (m ((c : Thread nD τ).loc main_arg6) : S256x6.Idx → EReal) (ix2 ⟨(i 1).val, idx2_lt1 i⟩ ⟨(i 0).val, idx2_lt0 i⟩)) := by
  have ha : W2 m ρ c (Proc.devRef .tc main_arg6) = m ((c : Thread nD τ).loc main_arg6) :=
    launched2 m ρ c main_arg6 (by unwritten [hostOps0_1]) (by unwritten [hostOps0])
  funext i
  obtain ⟨r, k, rfl⟩ := exists_ix2 i
  refine (congrFun ((prepared m ρ c main_v19 (by decide) (by unwritten [hostOps1_1]) (by unwritten [hostOps1])).trans
    (prep19 (W2 m ρ c))) (ix2 r k)).trans ?_
  rw [ha, truncf_apply]
  exact transpose_apply _ _ _ (ix2 r k) (ix2 k r) (fun b => by match b with | ⟨0, _⟩ => rfl | ⟨1, _⟩ => rfl)

/-- The radial bias as one row. -/
theorem radialB : V6 m ρ c main_v20 = (fun i : S1x256.Idx =>
    (m ((c : Thread nD τ).loc main_arg7) : S256.Idx → EReal) (ix1 ⟨(i 1).val, idx2_lt1 i⟩)) := by
  have ha : W2 m ρ c (Proc.devRef .tc main_arg7) = m ((c : Thread nD τ).loc main_arg7) :=
    launched2 m ρ c main_arg7 (by unwritten [hostOps0_1]) (by unwritten [hostOps0])
  funext i
  obtain ⟨u, k, rfl⟩ := exists_ix2 i
  refine (congrFun ((prepared m ρ c main_v20 (by decide) (by unwritten [hostOps1_1]) (by unwritten [hostOps1])).trans
    (prep20 (W2 m ρ c))) (ix2 u k)).trans ?_
  rw [ha]
  exact shapeCast_a_1a_apply _ _ u k

/-- The third weight block: entry (k, h) is weight (h, 640 + k). -/
theorem blockC : V6 m ρ c main_v17 = (fun i : S256x256.Idx =>
    (m ((c : Thread nD τ).loc main_arg8) : S256x896.Idx → EReal) (ix2 ⟨(i 1).val, idx2_lt1 i⟩ ⟨640 + (i 0).val, by have := idx2_lt0 i; omega⟩)) := by
  have ha : W2 m ρ c (Proc.devRef .tc main_arg8) = m ((c : Thread nD τ).loc main_arg8) :=
    launched2 m ρ c main_arg8 (by unwritten [hostOps0_1]) (by unwritten [hostOps0])
  funext i
  obtain ⟨k, h, rfl⟩ := exists_ix2 i
  refine (congrFun ((prepared m ρ c main_v17 (by decide) (by unwritten [hostOps1_1]) (by unwritten [hostOps1])).trans
    (prep17 (W2 m ρ c))) (ix2 k h)).trans ?_
  rw [ha, truncf_apply]
  refine (transpose_apply _ _ _ (ix2 k h) (ix2 h k) (fun b => by match b with | ⟨0, _⟩ => rfl | ⟨1, _⟩ => rfl)).trans ?_
  exact extractStridedSlice_apply _ _ _ (ix2 h k) (ix2 h ⟨640 + k.val, by omega⟩)
    (fun a => by match a with | ⟨0, _⟩ => exact (Nat.zero_add _).symm | ⟨1, _⟩ => rfl)

/-- The bias as one row. -/
theorem biasRow : V6 m ρ c main_v21 = (fun i : S1x256.Idx =>
    (m ((c : Thread nD τ).loc main_arg9) : S256.Idx → EReal) (ix1 ⟨(i 1).val, idx2_lt1 i⟩)) := by
  have ha : W2 m ρ c (Proc.devRef .tc main_arg9) = m ((c : Thread nD τ).loc main_arg9) :=
    launched2 m ρ c main_arg9 (by unwritten [hostOps0_1]) (by unwritten [hostOps0])
  funext i
  obtain ⟨u, k, rfl⟩ := exists_ix2 i
  refine (congrFun ((prepared m ρ c main_v21 (by decide) (by unwritten [hostOps1_1]) (by unwritten [hostOps1])).trans
    (prep21 (W2 m ρ c))) (ix2 u k)).trans ?_
  rw [ha]
  exact shapeCast_a_1a_apply _ _ u k

end Cert.KernelIdeal.EdgeHanded

end
-- ==== Proof.Whole.lean ====
/-
  The kernel's result as one function of its arguments. The result buffer ends at what the edge stage's write-backs
  leave; the edge stage was handed the two node parts looked up by endpoint, and those are the node stage's outputs,
  which were computed from the handed word column, conditioning rows, padded table and weight blocks. Put together,
  and with every word naming a row, this is the factored layer of the ten argument arrays.
-/
import proofs.«427969_j10883447128784_4_alg».proof.Proof.Gen.KernelIdeal.Frame
import proofs.«427969_j10883447128784_4_alg».proof.Proof.Spec
import proofs.«427969_j10883447128784_4_alg».proof.Proof.Compose
import proofs.«427969_j10883447128784_4_alg».proof.Proof.Node
import proofs.«427969_j10883447128784_4_alg».proof.Proof.Edge
import proofs.«427969_j10883447128784_4_alg».proof.Proof.HostBefore
import proofs.«427969_j10883447128784_4_alg».proof.Proof.HostBetween

set_option maxRecDepth 16384

noncomputable section

namespace Cert.KernelIdeal.Whole

open Cert.KernelIdeal Cert.KernelIdeal.Gen Cert.Factored
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The last boundary's contents of the result buffer are the factored layer of the launch contents of the arguments. -/
theorem result_eq
    (hx : ∀ n : Fin 16384, ((m ((c : Thread nD τ).loc main_arg0) : S16384.Idx → BitVec 32) (ix1 n)).toNat < 95)
    (hi : ∀ e : Fin 262144, ((m ((c : Thread nD τ).loc main_arg3) : S262144.Idx → BitVec 32) (ix1 e)).toNat < 16384)
    (hj : ∀ e : Fin 262144, ((m ((c : Thread nD τ).loc main_arg4) : S262144.Idx → BitVec 32) (ix1 e)).toNat < 16384) :
    W7 m ρ c (Proc.devRef .tc main_v25)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have hw : ∀ n : Fin 16384, ((fun i : S16384x1.Idx =>
      (m ((c : Thread nD τ).loc main_arg0) : S16384.Idx → BitVec 32) (ix1 ⟨(i 0).val, idx2_lt0 i⟩)) (ix2 n ⟨0, Nat.one_pos⟩)).toNat < 128 :=
    fun n => lt_trans (hx n) (by decide)
  have hA := (hF0 m ρ c 7).symm.trans (NodeStage.out7 (V3 m ρ) c _ _ _ _ _ _ _
    (NodeHanded.words m ρ c) (NodeHanded.cond m ρ c) (NodeHanded.table m ρ c) (NodeHanded.blockA m ρ c)
    (NodeHanded.blockAc m ρ c) (NodeHanded.blockB m ρ c) (NodeHanded.blockBc m ρ c) hw)
  have hB := (hF0 m ρ c 8).symm.trans (NodeStage.out8 (V3 m ρ) c _ _ _ _ _ _ _
    (NodeHanded.words m ρ c) (NodeHanded.cond m ρ c) (NodeHanded.table m ρ c) (NodeHanded.blockA m ρ c)
    (NodeHanded.blockAc m ρ c) (NodeHanded.blockB m ρ c) (NodeHanded.blockBc m ρ c) hw)
  refine (W7_arr m ρ c 7).trans ?_
  refine (EdgeStage.out7 (V6 m ρ) c _ _ _ _ _ _ _ (EdgeHanded.radialIn m ρ c) (EdgeHanded.first m ρ c _ hA hi)
    (EdgeHanded.second m ρ c _ hB hj) (EdgeHanded.radialW m ρ c) (EdgeHanded.radialB m ρ c) (EdgeHanded.blockC m ρ c)
    (EdgeHanded.biasRow m ρ c)).trans ?_
  exact stages_eq_result _ _ _ _ _ _ _ _ _ _ hx hw

end Cert.KernelIdeal.Whole

end
-- ==== Proof.Ref.lean ====
/-
  The reference's result is the factored layer. Index by index: the reference looks up each node's embedding row by its
  word (negative words wrapped, the row kept inside the table), lays the conditioning row after it, looks up both
  endpoints' 320-entry feature rows for every edge, lays the 256-entry radial row after them, and contracts the 896
  entries with a row of the weights. The contraction is a finite sum over the concatenation, so it splits along the cuts
  256 | 64 | 256 | 64 | 256 into the two node parts and the radial part; the logistic spelt 1 / (1 + e^(-z)) is the
  logistic. With every word naming a row (0 ≤ word < table rows) the wrap-around does nothing and the clamp keeps the word.
-/
import proofs.«427969_j10883447128784_4_alg».proof.Proof.Gen.ReferenceIdeal.Read
import proofs.«427969_j10883447128784_4_alg».proof.Proof.Spec
import proofs.«427969_j10883447128784_4_alg».proof.Proof.LibRowGather
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.Unsplit

open Cert.ReferenceIdeal Cert.ReferenceIdeal.Read Cert.Factored Cert.Lib.RowGather
open Idealize.ShloMosaic Idealize.ShloMosaic.ValueIdx

/-! ## The constant one, and the gate as the reference spells it -/

/-- The word 0x3F800000 is the number one. -/
theorem one_word : Ideal.ofBits .f32 0x3F800000#32 = 1 := by
  simp [Ideal.ofBits, Ideal.ieee, -EReal.coe_mul]; norm_num

/-- z · (1 / (1 + e^(-z))) is the gate of z: the quotient is the logistic by definition. -/
theorem gate_spelt (z : EReal) :
    FloatOps.mulf (F := Ideal) (φ := .f32) z
      (FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) z))))
      = gate z := by
  show z * Ideal.div (Ideal.ofBits .f32 0x3F800000#32) (Ideal.ofBits .f32 0x3F800000#32 + Ideal.exp (-z)) = gate z
  rw [one_word]
  rfl

/-! ## A word that names a row is left alone by the wrap-around -/

/-- For a word below 2^31 the signed test "below zero" fails, so "add the table's height if negative" keeps the word. -/
theorem wrap_keeps (w N : BitVec 32) (hw : w.toNat < 2 ^ 31) :
    Scalar.select (IntOp.cmpi .slt w 0#32) (IntOp.addi w N) w = w := by
  have hne : ¬ IntOp.cmpi .slt w 0#32 = 1#1 := by
    rw [StableHlo.Predicate.slt_iff_toNat hw (by decide)]
    exact Nat.not_lt_zero _
  rw [eq_zero_of_ne_one hne, select_zero]

/-! ## A row lookup whose word is known -/

/-- The lookup at (e, k) when the word at (e, 0) is w: row w (signed, kept inside the table), column k. -/
theorem lookup_at {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ 32) (e : Fin E) (k : Fin C) (w : BitVec 32)
    (hw : idx (ix2 e ⟨0, Nat.one_pos⟩) = w) :
    Host.gather (rowDims N C E wf) x idx (ix2 e k) = x (ix2 (rowOf N hN w) k) := by
  subst hw
  exact rowGather_apply hN wf x idx e k

/-! ## The three start words -/

/-- Node n's word as the first lookup receives it: the vocabulary word itself. -/
theorem word_node (x0 : S16384.Idx → BitVec 32) (n : Fin 16384) (hx : (x0 (ix1 n)).toNat < 95) :
    val_main_v5 (F := Ideal) x0 (ix2 n ⟨0, Nat.one_pos⟩) = x0 (ix1 n) := by
  have hidx : idx_main_v5 (ix2 n ⟨0, Nat.one_pos⟩) = ix1 n := funext fun a => Fin.ext (by
    match a with
    | ⟨0, _⟩ => rfl)
  rw [val_main_v5_apply, hidx, val_main_v4_apply, val_main_v1_apply, val_main_v3_apply, val_main_v0_apply,
    val_main_c_apply]
  exact wrap_keeps _ _ (by omega)

/-- Edge e's first endpoint word as the second lookup receives it. -/
theorem word_first (x3 : S262144.Idx → BitVec 32) (e : Fin 262144) (hi : (x3 (ix1 e)).toNat < 16384) :
    val_main_v24 (F := Ideal) x3 (ix2 e ⟨0, Nat.one_pos⟩) = x3 (ix1 e) := by
  have hidx : idx_main_v24 (ix2 e ⟨0, Nat.one_pos⟩) = ix1 e := funext fun a => Fin.ext (by
    match a with
    | ⟨0, _⟩ => rfl)
  rw [val_main_v24_apply, hidx, val_main_v23_apply, val_main_v20_apply, val_main_v22_apply, val_main_v19_apply,
    val_main_c_2_apply]
  exact wrap_keeps _ _ (by omega)

/-- Edge e's second endpoint word as the third lookup receives it. -/
theorem word_second (x4 : S262144.Idx → BitVec 32) (e : Fin 262144) (hj : (x4 (ix1 e)).toNat < 16384) :
    val_main_v31 (F := Ideal) x4 (ix2 e ⟨0, Nat.one_pos⟩) = x4 (ix1 e) := by
  have hidx : idx_main_v31 (ix2 e ⟨0, Nat.one_pos⟩) = ix1 e := funext fun a => Fin.ext (by
    match a with
    | ⟨0, _⟩ => rfl)
  rw [val_main_v31_apply, hidx, val_main_v30_apply, val_main_v27_apply, val_main_v29_apply, val_main_v26_apply,
    val_main_c_4_apply]
  exact wrap_keeps _ _ (by omega)

/-! ## The two concatenations, piece by piece -/

/-- Columns 0 … 255 of a node's feature row are the first operand's row. -/
theorem features_left (a : S16384x256.Idx → EReal) (b : S16384x64.Idx → EReal)
    (h : Shape.Concatenates [S16384x256, S16384x64] S16384x320 1) (n : Fin 16384) (k : Fin 256) :
    concatenate S16384x320 1 [⟨S16384x256, a⟩, ⟨S16384x64, b⟩] h (ix2 n ⟨k.val, by omega⟩) = a (ix2 n k) :=
  concatenate_pair_apply_left (t := S16384x320) (s₁ := S16384x256) (s₂ := S16384x64) (1 : Fin 2) a b h _ rfl (ix2 n k)
    (fun c => match c with
      | ⟨0, _⟩ => rfl
      | ⟨1, _⟩ => rfl)

/-- Columns 256 … 319 of a node's feature row are the second operand's row. -/
theorem features_right (a : S16384x256.Idx → EReal) (b : S16384x64.Idx → EReal)
    (h : Shape.Concatenates [S16384x256, S16384x64] S16384x320 1) (n : Fin 16384) (c : Fin 64) :
    concatenate S16384x320 1 [⟨S16384x256, a⟩, ⟨S16384x64, b⟩] h (ix2 n ⟨256 + c.val, by omega⟩) = b (ix2 n c) :=
  concatenate_pair_apply_right (t := S16384x320) (s₁ := S16384x256) (s₂ := S16384x64) (1 : Fin 2) a b h _ rfl rfl
    (ix2 n c)
    (fun d => match d with
      | ⟨0, _⟩ => fun _ => rfl
      | ⟨1, _⟩ => fun hne => absurd rfl hne)
    (Nat.add_comm _ _)

section Three

variable (a b : S262144x320.Idx → EReal) (c : S262144x256.Idx → EReal)
  (h : Shape.Concatenates [S262144x320, S262144x320, S262144x256] S262144x896 1) (e : Fin 262144)

/-- Columns 0 … 319 of an edge's joined row are the first endpoint's features. -/
theorem joined_first (k : Fin 320) :
    concatenate S262144x896 1 [⟨S262144x320, a⟩, ⟨S262144x320, b⟩, ⟨S262144x256, c⟩] h (ix2 e ⟨k.val, by omega⟩)
      = a (ix2 e k) :=
  concatenate_apply_piece (t := S262144x896) (1 : Fin 2) [⟨S262144x320, a⟩, ⟨S262144x320, b⟩, ⟨S262144x256, c⟩] h _ 0
    (by show (0 : Nat) < 3; omega) S262144x320 a rfl rfl 0 rfl (ix2 e k)
    (fun d => match d with
      | ⟨0, _⟩ => fun _ => rfl
      | ⟨1, _⟩ => fun hne => absurd rfl hne)
    (Nat.zero_add _)

/-- Columns 320 … 639 of an edge's joined row are the second endpoint's features. -/
theorem joined_second (k : Fin 320) :
    concatenate S262144x896 1 [⟨S262144x320, a⟩, ⟨S262144x320, b⟩, ⟨S262144x256, c⟩] h (ix2 e ⟨320 + k.val, by omega⟩)
      = b (ix2 e k) :=
  concatenate_apply_piece (t := S262144x896) (1 : Fin 2) [⟨S262144x320, a⟩, ⟨S262144x320, b⟩, ⟨S262144x256, c⟩] h _ 1
    (by show (1 : Nat) < 3; omega) S262144x320 b rfl rfl 320 rfl (ix2 e k)
    (fun d => match d with
      | ⟨0, _⟩ => fun _ => rfl
      | ⟨1, _⟩ => fun hne => absurd rfl hne)
    rfl

/-- Columns 640 … 895 of an edge's joined row are its radial row. -/
theorem joined_third (k : Fin 256) :
    concatenate S262144x896 1 [⟨S262144x320, a⟩, ⟨S262144x320, b⟩, ⟨S262144x256, c⟩] h (ix2 e ⟨640 + k.val, by omega⟩)
      = c (ix2 e k) :=
  concatenate_apply_piece (t := S262144x896) (1 : Fin 2) [⟨S262144x320, a⟩, ⟨S262144x320, b⟩, ⟨S262144x256, c⟩] h _ 2
    (by show (2 : Nat) < 3; omega) S262144x256 c rfl rfl 640 rfl (ix2 e k)
    (fun d => match d with
      | ⟨0, _⟩ => fun _ => rfl
      | ⟨1, _⟩ => fun hne => absurd rfl hne)
    rfl

end Three

/-! ## The three lookups -/

section Lookups

variable (x0 : S16384.Idx → BitVec 32) (x1 : S16384x64.Idx → EReal) (x2 : S262144x6.Idx → EReal)
  (x3 x4 : S262144.Idx → BitVec 32) (x5 : S95x256.Idx → EReal) (x6 : S256x6.Idx → EReal) (x7 : S256.Idx → EReal)

/-- Node n's embedding row is the table's row named by its word. -/
theorem embedding_row (n : Fin 16384) (k : Fin 256) (hx : (x0 (ix1 n)).toNat < 95) :
    val_main_v6 (F := Ideal) x0 x5 (ix2 n k) = x5 (ix2 (rowOf 95 (by decide) (x0 (ix1 n))) k) := by
  unfold val_main_v6
  exact lookup_at (N := 95) (C := 256) (E := 16384) (by decide)
    Facts₀.gather_S95x256_S16384x1_S16384x256_1_0_n_n_0_1_1256_wf x5 (val_main_v5 (F := Ideal) x0) n k _
    (word_node x0 n hx)

/-- Columns 0 … 255 of node n's feature row: its embedding row. -/
theorem feature_emb (n : Fin 16384) (k : Fin 256) (hx : (x0 (ix1 n)).toNat < 95) :
    val_main_v7 (F := Ideal) x0 x1 x5 (ix2 n ⟨k.val, by omega⟩) = x5 (ix2 (rowOf 95 (by decide) (x0 (ix1 n))) k) := by
  unfold val_main_v7
  exact (features_left _ _ _ n k).trans (embedding_row x0 x5 n k hx)

/-- Columns 256 … 319 of node n's feature row: its conditioning row. -/
theorem feature_cond (n : Fin 16384) (c : Fin 64) :
    val_main_v7 (F := Ideal) x0 x1 x5 (ix2 n ⟨256 + c.val, by omega⟩) = x1 (ix2 n c) := by
  unfold val_main_v7
  exact features_right _ _ _ n c

/-- The first endpoint's looked-up row is the feature row of the node its word names. -/
theorem first_row (e : Fin 262144) (k : Fin 320) (hi : (x3 (ix1 e)).toNat < 16384) :
    val_main_v25 (F := Ideal) x0 x1 x3 x5 (ix2 e k)
      = val_main_v7 (F := Ideal) x0 x1 x5 (ix2 (rowOf 16384 (by decide) (x3 (ix1 e))) k) := by
  unfold val_main_v25
  generalize val_main_v7 (F := Ideal) x0 x1 x5 = y
  exact lookup_at (N := 16384) (C := 320) (E := 262144) (by decide)
    Facts₀.gather_S16384x320_S262144x1_S262144x320_1_0_n_n_0_1_1320_wf y (val_main_v24 (F := Ideal) x3) e k _
    (word_first x3 e hi)

/-- The second endpoint's looked-up row is the feature row of the node its word names. -/
theorem second_row (e : Fin 262144) (k : Fin 320) (hj : (x4 (ix1 e)).toNat < 16384) :
    val_main_v32 (F := Ideal) x0 x1 x4 x5 (ix2 e k)
      = val_main_v7 (F := Ideal) x0 x1 x5 (ix2 (rowOf 16384 (by decide) (x4 (ix1 e))) k) := by
  unfold val_main_v32
  generalize val_main_v7 (F := Ideal) x0 x1 x5 = y
  exact lookup_at (N := 16384) (C := 320) (E := 262144) (by decide)
    Facts₀.gather_S16384x320_S262144x1_S262144x320_1_0_n_n_0_1_1320_wf y (val_main_v31 (F := Ideal) x4) e k _
    (word_second x4 e hj)

/-- The reference's radial row is the gated affine image of the radial basis values. -/
theorem radial_row (e : Fin 262144) (k : Fin 256) :
    val_main_v18 (F := Ideal) x2 x6 x7 (ix2 e k) = radial x2 x6 x7 (ix2 e k) := by
  have hl : ∀ r : Fin 6, lidx_main_v8 (ix2 e k) r = ix2 e r := fun r => funext fun a => by
    match a with
    | ⟨0, _⟩ => rfl
    | ⟨1, _⟩ => rfl
  have hr : ∀ r : Fin 6, ridx_main_v8 (ix2 e k) r = ix2 k r := fun r => funext fun a => by
    match a with
    | ⟨0, _⟩ => rfl
    | ⟨1, _⟩ => rfl
  have hb : idx_main_v9 (idx_main_v10 (ix2 e k)) = ix1 k := funext fun a => by
    match a with
    | ⟨0, _⟩ => rfl
  rw [val_main_v18_apply, val_main_v17_apply, val_main_v16_apply, val_main_cst_1_apply, val_main_v15_apply,
    val_main_v14_apply, val_main_cst_apply, val_main_v13_apply, val_main_v12_apply, gate_spelt, radial_ix2,
    val_main_v11_apply, val_main_v8_apply, val_main_v10_apply, val_main_v9_apply, hb]
  simp only [hl, hr]
  rfl

end Lookups

/-! ## An edge's joined row along the five cuts -/

section Joined

variable (x0 : S16384.Idx → BitVec 32) (x1 : S16384x64.Idx → EReal) (x2 : S262144x6.Idx → EReal)
  (x3 x4 : S262144.Idx → BitVec 32) (x5 : S95x256.Idx → EReal) (x6 : S256x6.Idx → EReal) (x7 : S256.Idx → EReal)
  (hx : ∀ n : Fin 16384, (x0 (ix1 n)).toNat < 95)
  (hi : ∀ e : Fin 262144, (x3 (ix1 e)).toNat < 16384) (hj : ∀ e : Fin 262144, (x4 (ix1 e)).toNat < 16384)
  (e : Fin 262144)

include hx hi in
/-- Columns 0 … 255: the embedding row of the first endpoint. -/
theorem joined_emb_first (k : Fin 256) :
    val_main_v33 (F := Ideal) x0 x1 x2 x3 x4 x5 x6 x7 (ix2 e ⟨k.val, by omega⟩)
      = x5 (ix2 (rowOf 95 (by decide) (x0 (ix1 (rowOf 16384 (by decide) (x3 (ix1 e)))))) k) := by
  unfold val_main_v33
  exact ((joined_first _ _ _ _ e ⟨k.val, by omega⟩).trans (first_row x0 x1 x3 x5 e ⟨k.val, by omega⟩ (hi e))).trans
    (feature_emb x0 x1 x5 _ k (hx _))

include hi in
/-- Columns 256 … 319: the conditioning row of the first endpoint. -/
theorem joined_cond_first (c : Fin 64) :
    val_main_v33 (F := Ideal) x0 x1 x2 x3 x4 x5 x6 x7 (ix2 e ⟨256 + c.val, by omega⟩)
      = x1 (ix2 (rowOf 16384 (by decide) (x3 (ix1 e))) c) := by
  unfold val_main_v33
  exact ((joined_first _ _ _ _ e ⟨256 + c.val, by omega⟩).trans
    (first_row x0 x1 x3 x5 e ⟨256 + c.val, by omega⟩ (hi e))).trans (feature_cond x0 x1 x5 _ c)

include hx hj in
/-- Columns 320 … 575: the embedding row of the second endpoint. -/
theorem joined_emb_second (k : Fin 256) :
    val_main_v33 (F := Ideal) x0 x1 x2 x3 x4 x5 x6 x7 (ix2 e ⟨320 + k.val, by omega⟩)
      = x5 (ix2 (rowOf 95 (by decide) (x0 (ix1 (rowOf 16384 (by decide) (x4 (ix1 e)))))) k) := by
  unfold val_main_v33
  exact ((joined_second _ _ _ _ e ⟨k.val, by omega⟩).trans (second_row x0 x1 x4 x5 e ⟨k.val, by omega⟩ (hj e))).trans
    (feature_emb x0 x1 x5 _ k (hx _))

include hj in
/-- Columns 576 … 639: the conditioning row of the second endpoint. -/
theorem joined_cond_second (c : Fin 64) :
    val_main_v33 (F := Ideal) x0 x1 x2 x3 x4 x5 x6 x7 (ix2 e ⟨320 + 256 + c.val, by omega⟩)
      = x1 (ix2 (rowOf 16384 (by decide) (x4 (ix1 e))) c) := by
  have hc : (⟨320 + 256 + c.val, by omega⟩ : Fin 896) = ⟨320 + (⟨256 + c.val, by omega⟩ : Fin 320).val, by omega⟩ :=
    Fin.ext (Nat.add_assoc _ _ _)
  rw [hc]
  unfold val_main_v33
  exact ((joined_second _ _ _ _ e ⟨256 + c.val, by omega⟩).trans
    (second_row x0 x1 x4 x5 e ⟨256 + c.val, by omega⟩ (hj e))).trans (feature_cond x0 x1 x5 _ c)

/-- Columns 640 … 895: the radial row. -/
theorem joined_radial (k : Fin 256) :
    val_main_v33 (F := Ideal) x0 x1 x2 x3 x4 x5 x6 x7 (ix2 e ⟨640 + k.val, by omega⟩)
      = radial x2 x6 x7 (ix2 e k) := by
  unfold val_main_v33
  exact (joined_third _ _ _ _ e k).trans (radial_row x2 x6 x7 e k)

end Joined

/-! ## The reference is the factored layer -/

/-- The reference's last stage, as a function of the ten argument arrays, is the factored layer, provided every
    vocabulary word names a row of the 95-row table and every endpoint word names one of the 16384 nodes. -/
theorem reference_eq (x0 : S16384.Idx → BitVec 32) (x1 : S16384x64.Idx → EReal) (x2 : S262144x6.Idx → EReal)
    (x3 x4 : S262144.Idx → BitVec 32) (x5 : S95x256.Idx → EReal) (x6 : S256x6.Idx → EReal) (x7 : S256.Idx → EReal)
    (x8 : S256x896.Idx → EReal) (x9 : S256.Idx → EReal)
    (hx : ∀ n : Fin 16384, (x0 (ix1 n)).toNat < 95)
    (hi : ∀ e : Fin 262144, (x3 (ix1 e)).toNat < 16384) (hj : ∀ e : Fin 262144, (x4 (ix1 e)).toNat < 16384) :
    val_main_v44 (F := Ideal) x0 x1 x2 x3 x4 x5 x6 x7 x8 x9 = result x0 x1 x2 x3 x4 x5 x6 x7 x8 x9 := by
  funext i
  obtain ⟨e, h, rfl⟩ : ∃ (e : Fin 262144) (h : Fin 256), i = ix2 e h := ⟨i 0, i 1, eq_ix2 i⟩
  have hl : ∀ k : Fin 896, lidx_main_v34 (ix2 e h) k = ix2 e k := fun k => funext fun a => by
    match a with
    | ⟨0, _⟩ => rfl
    | ⟨1, _⟩ => rfl
  have hr : ∀ k : Fin 896, ridx_main_v34 (ix2 e h) k = ix2 h k := fun k => funext fun a => by
    match a with
    | ⟨0, _⟩ => rfl
    | ⟨1, _⟩ => rfl
  have hb : idx_main_v35 (idx_main_v36 (ix2 e h)) = ix1 h := funext fun a => by
    match a with
    | ⟨0, _⟩ => rfl
  -- the outer gate, then the pre-activation: the 896-term contraction plus the bias
  rw [val_main_v44_apply, val_main_v43_apply, val_main_v42_apply, val_main_cst_7_apply, val_main_v41_apply,
    val_main_v40_apply, val_main_cst_6_apply, val_main_v39_apply, val_main_v38_apply, gate_spelt]
  show gate _ = gate (preact x0 x1 x2 x3 x4 x5 x6 x7 x8 x9 (ix2 e h))
  refine congrArg gate ?_
  rw [preact_ix2, nodeProj_ix2, nodeProj_ix2, val_main_v37_apply, val_main_v36_apply, val_main_v35_apply, hb,
    val_main_v34_apply]
  simp only [hl, hr]
  show (∑ k : Fin 896, val_main_v33 (F := Ideal) x0 x1 x2 x3 x4 x5 x6 x7 (ix2 e k) * x8 (ix2 h k)) + x9 (ix1 h) = _
  refine congrArg (· + x9 (ix1 h)) ?_
  -- the contraction along the five cuts
  refine (sum_split5 (fun f : Fin 896 => val_main_v33 (F := Ideal) x0 x1 x2 x3 x4 x5 x6 x7 (ix2 e f) * x8 (ix2 h f))).trans ?_
  simp only [joined_emb_first x0 x1 x2 x3 x4 x5 x6 x7 hx hi e, joined_cond_first x0 x1 x2 x3 x4 x5 x6 x7 hi e,
    joined_emb_second x0 x1 x2 x3 x4 x5 x6 x7 hx hj e, joined_cond_second x0 x1 x2 x3 x4 x5 x6 x7 hj e,
    joined_radial x0 x1 x2 x3 x4 x5 x6 x7 e, Nat.zero_add]

end Cert.ReferenceIdeal.Unsplit

end
-- ==== Proof.Pre.lean ====
/-
  What the precondition says about the three integer inputs. The precondition is one conjunction of "all entries satisfy"
  tests; its last three conjuncts say that every vocabulary word w has 0 ≤ w < 95 and every endpoint word of either
  endpoint array has 0 ≤ w < 16384, as signed 32-bit comparisons. A word that passes 0 ≤ w as a signed number has its top
  bit clear, so its signed and unsigned readings agree, and w < n signed then says its unsigned value is below n.
-/
import proofs.«427969_j10883447128784_4_alg».proof.Defs
import proofs.«427969_j10883447128784_4_alg».proof.Proof.Gen.KernelIdeal
import proofs.«427969_j10883447128784_4_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Domain

open Cert.KernelIdeal
open Idealize.ShloMosaic Idealize.ShloMosaic.TcCoe Idealize.SL.Sem Idealize.ShloMosaic.ValueIdx

/-- One word. If w passes 0 ≤ w as a signed comparison, its top bit is clear, so its signed reading is its unsigned
    value; the signed test w < N against a literal N below 2³¹ (whose signed reading is N itself) is then the
    inequality between unsigned values. -/
private theorem toNat_lt_of_signed_range (w : BitVec 32) (N : Nat) (hN : N < 2 ^ 31)
    (h0 : IntOp.cmpi .sge w 0#32 = 1#1) (h1 : IntOp.cmpi .slt w (BitVec.ofNat 32 N) = 1#1) : w.toNat < N := by
  rw [IntOp.cmpi_sge, show (0#32 : BitVec 32).toInt = 0 from by decide, BitVec.toInt_pos_iff] at h0
  have hw : w.toInt = w.toNat := StableHlo.Predicate.toInt_eq_toNat_of_lt (by omega)
  rw [IntOp.cmpi_slt, hw, StableHlo.Predicate.toInt_ofNat_small N hN] at h1
  omega

/-- The entrywise "and" of two bit arrays is 1 at an index exactly when both arrays are 1 there. -/
private theorem and_at {s : Shape} (x y : IVec s 1) (i : s.Idx) (h : andi x y i = 1#1) : x i = 1#1 ∧ y i = 1#1 :=
  IntOp.andi_eq_one.1 h

/-- One array. The test "all entries of v satisfy (v ≥ 0) & (v < N)" is an and-fold, over every index of v, of the
    bit (0 ≤ v i) ∧ (v i < N), where 0 and N are scalars spread over the shape of v. A fold by "and" that ends in 1
    met a 1 at every index, so both comparisons hold at each i, and the one-word fact above gives v i < N unsigned. -/
private theorem entries_lt {s : Shape} {axes : List (Fin s.rank)} (N : Nat) (hN : N < 2 ^ 31) (v : IVec s 32)
    (hb : (⟨0, ![]⟩ : Shape).BroadcastsInDim s (![] : Fin 0 → Fin s.rank))
    (hr : s.ReducesTo axes (⟨0, ![]⟩ : Shape)) (hS : 0 < (⟨0, ![]⟩ : Shape).numel) (init : IVec (⟨0, ![]⟩ : Shape) 1)
    (e : Host.reduce IntOp.andi
          (andi (cmpi .sge v (broadcastInDim s ![] hb (constantI (⟨0, ![]⟩ : Shape) 32 0#32)))
                (cmpi .slt v (broadcastInDim s ![] hb (constantI (⟨0, ![]⟩ : Shape) 32 (BitVec.ofNat 32 N)))))
          init hr hS ix0 = 1#1)
    (i : s.Idx) : (v i).toNat < N := by
  haveI : Subsingleton (⟨0, ![]⟩ : Shape).Idx := ⟨fun a b => funext fun d => d.elim0⟩
  have hi := Host.reduce_andi_all _ init hr hS ix0 e i
  simp only [andi, cmpi, broadcastInDim, constantI] at hi
  obtain ⟨h0, h1⟩ := IntOp.andi_eq_one.1 hi
  exact toNat_lt_of_signed_range (v i) N hN h0 h1

/-- The tail of the conjunction. Whatever bit t the earlier (floating-point) tests produced, the conjunction
    ((t ∧ all(a0 ∈ [0,95))) ∧ all(a3 ∈ [0,16384))) ∧ all(a4 ∈ [0,16384)) being 1 makes each of its three last
    members 1: peel the and-chain from the right, and read each member with the one-array fact. The first member t
    is never opened. -/
private theorem ranges_of_tail [Cert.Pre_finite_inputs.Facts] (a0 : IVec Cert.Pre_finite_inputs.S16384 32)
    (a3 a4 : IVec Cert.Pre_finite_inputs.S262144 32) (t : IVec Cert.Pre_finite_inputs.S_ 1)
    (e : Cert.Pre_finite_inputs.fn_part2 (F := Ideal) a0 a3 a4 t ix0 = 1#1) :
    (∀ i, (a0 i).toNat < 95) ∧ (∀ i, (a3 i).toNat < 16384) ∧ (∀ i, (a4 i).toNat < 16384) := by
  unfold Cert.Pre_finite_inputs.fn_part2 Cert.Pre_finite_inputs.fn_part3 at e
  dsimp only at e
  obtain ⟨e, h4⟩ := and_at _ _ _ e
  obtain ⟨e, h3⟩ := and_at _ _ _ e
  obtain ⟨-, h0⟩ := and_at _ _ _ e
  exact ⟨entries_lt 95 (by norm_num) a0 _ _ _ _ h0, entries_lt 16384 (by norm_num) a3 _ _ _ _ h3,
    entries_lt 16384 (by norm_num) a4 _ _ _ _ h4⟩

/-- Under the precondition every vocabulary word is below 95 and every endpoint word below 16384, as unsigned values. -/
theorem ranges_of_pre (m : (ℓ : Loc nD τ sig) → Buf (Elt Ideal) ℓ) (h : Cert.Pre_KernelIdeal m) (c : Dev nD) :
    (∀ n : Fin 16384, ((m ((c.tc : Thread nD τ).loc main_arg0) : S16384.Idx → BitVec 32) (ix1 n)).toNat < 95)
    ∧ (∀ e : Fin 262144, ((m ((c.tc : Thread nD τ).loc main_arg3) : S262144.Idx → BitVec 32) (ix1 e)).toNat < 16384)
    ∧ (∀ e : Fin 262144, ((m ((c.tc : Thread nD τ).loc main_arg4) : S262144.Idx → BitVec 32) (ix1 e)).toNat < 16384) := by
  -- the precondition at this device, read at the one index of its scalar result; the first operations of the chain
  -- only prepare the floating-point tests, and hand the three integer arrays on unchanged to the tail
  have e := congrFun (h c) ix0
  unfold Cert.Pre_finite_inputs.fn Cert.Pre_finite_inputs.fn_part1 at e
  dsimp only at e
  obtain ⟨h0, h3, h4⟩ := ranges_of_tail _ _ _ _ e
  exact ⟨fun n => h0 (ix1 n), fun k => h3 (ix1 k), fun k => h4 (ix1 k)⟩

end Cert.KernelIdeal.Domain

end
-- ==== Proof.lean ====
/-
  The certificate of the factored edge layer against its unfactored reference, over the extended reals.

  The reference builds, for every edge, the 896-entry row (features of the first endpoint | features of the second
  endpoint | gated radial projection), contracts it with a row of the 256 x 896 weight matrix, adds a bias and gates the
  sum by z ↦ z · logistic z; a node's features are its embedding row followed by its conditioning row. The kernel
  splits the contraction along the concatenation: a first stage computes, once per node, the part of the contraction
  that meets the node's features, for each endpoint position (weight columns 0 … 319 and 320 … 639), selecting the
  embedding row by a one-hot product with the table padded to 128 rows; the host looks both parts up per edge; a second
  stage adds them to the radial part (columns 640 … 895) and the bias and gates. A finite sum over a concatenation is
  the sum of the sums over its pieces, in any grouping, on the extended reals too, so no finiteness is used. The two
  programs agree where every integer input names a row of the array it indexes (0 ≤ x < 95, 0 ≤ i, j < 16384): outside
  that range the reference clamps while the kernel reads a zero row or fills with not-a-number, so the statement carries
  those three conjuncts.

  The three frames: the two kernel programs' frames are the generated ones; the reference has no kernel, and its frame
  is its run with the result dropped. The idealization rewrote nothing, so `preserves` is trivial. For `algebraic` both
  runs are stated with the same result, `Cert.Factored.result` of the ten argument arrays: the kernel's by reading the
  result buffer back through the two stages (`Whole.result_eq`), the reference's by splitting its contraction
  (`Unsplit.reference_eq`); the range facts come from the precondition (`Domain.ranges_of_pre`).
-/
import proofs.«427969_j10883447128784_4_alg».proof.Defs
import proofs.«427969_j10883447128784_4_alg».proof.Proof.Gen.Kernel
import proofs.«427969_j10883447128784_4_alg».proof.Proof.Gen.Kernel.Skeleton
import proofs.«427969_j10883447128784_4_alg».proof.Proof.Gen.Kernel.Launch
import proofs.«427969_j10883447128784_4_alg».proof.Proof.Gen.Kernel.Points
import proofs.«427969_j10883447128784_4_alg».proof.Proof.Gen.Kernel.Frame
import proofs.«427969_j10883447128784_4_alg».proof.Proof.Gen.KernelIdeal
import proofs.«427969_j10883447128784_4_alg».proof.Proof.Gen.KernelIdeal.Skeleton
import proofs.«427969_j10883447128784_4_alg».proof.Proof.Gen.KernelIdeal.Launch
import proofs.«427969_j10883447128784_4_alg».proof.Proof.Gen.KernelIdeal.Points
import proofs.«427969_j10883447128784_4_alg».proof.Proof.Gen.KernelIdeal.Frame
import proofs.«427969_j10883447128784_4_alg».proof.Proof.Gen.ReferenceIdeal
import proofs.«427969_j10883447128784_4_alg».proof.Proof.Gen.ReferenceIdeal.Run
import proofs.«427969_j10883447128784_4_alg».proof.Proof.Gen.ReferenceIdeal.Read
import proofs.«427969_j10883447128784_4_alg».proof.Proof.Gen.Pre_finite_inputs
import proofs.«427969_j10883447128784_4_alg».proof.Proof.Spec
import proofs.«427969_j10883447128784_4_alg».proof.Proof.RunValue
import proofs.«427969_j10883447128784_4_alg».proof.Proof.Whole
import proofs.«427969_j10883447128784_4_alg».proof.Proof.Ref
import proofs.«427969_j10883447128784_4_alg».proof.Proof.Pre
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the factored layer of the arguments in their result buffers. -/
theorem algebraic : Cert.algebraic_KernelIdeal_ReferenceIdeal := by
  intro m ρ m' ρ' hpre hagree
  refine ⟨fun c => Cert.Factored.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.RunValue.run_value (F := Ideal) m ρ)
    obtain ⟨hx, hi, hj⟩ := Cert.KernelIdeal.Domain.ranges_of_pre m hpre c
    exact Cert.KernelIdeal.Whole.result_eq m ρ c hx hi hj
  · refine (θ_run Cert.ReferenceIdeal.defs _ _).mono (fun r h c => ⟨(h c).1.trans ?_, (h c).2⟩)
      (Cert.ReferenceIdeal.Value.run (F := Ideal) m' ρ')
    obtain ⟨hx, hi, hj⟩ := Cert.KernelIdeal.Domain.ranges_of_pre m hpre c
    obtain ⟨a0, a1, a2, a3, a4, a5, a6, a7, a8, a9⟩ := hagree c
    rw [Cert.ReferenceIdeal.Read.val_main_v44_eq, a0, a1, a2, a3, a4, a5, a6, a7, a8, a9]
    exact Cert.ReferenceIdeal.Unsplit.reference_eq _ _ _ _ _ _ _ _ _ _ hx hi hj

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
